-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x48 : Shape := ⟨2, ![32, 48]⟩
abbrev S48 : Shape := ⟨1, ![48]⟩
abbrev S48x48 : Shape := ⟨2, ![48, 48]⟩
abbrev S48x16 : Shape := ⟨2, ![48, 16]⟩
abbrev S16 : Shape := ⟨1, ![16]⟩
abbrev S_ : Shape := ⟨0, ![]⟩
abbrev S1x1600000 : Shape := ⟨2, ![1, 1600000]⟩
abbrev S1600000 : Shape := ⟨1, ![1600000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x48 : S_.BroadcastsInDim S32x48 (![] : Fin 0 → Fin S32x48.rank)
  reducesTo_S32x48_S_d0_1 : S32x48.ReducesTo [0, 1] S_
  bcast_S_S48 : S_.BroadcastsInDim S48 (![] : Fin 0 → Fin S48.rank)
  reducesTo_S48_S_d0 : S48.ReducesTo [0] S_
  bcast_S_S48x48 : S_.BroadcastsInDim S48x48 (![] : Fin 0 → Fin S48x48.rank)
  reducesTo_S48x48_S_d0_1 : S48x48.ReducesTo [0, 1] S_
  bcast_S_S48x16 : S_.BroadcastsInDim S48x16 (![] : Fin 0 → Fin S48x16.rank)
  reducesTo_S48x16_S_d0_1 : S48x16.ReducesTo [0, 1] S_
  bcast_S_S16 : S_.BroadcastsInDim S16 (![] : Fin 0 → Fin S16.rank)
  reducesTo_S16_S_d0 : S16.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_c_13 : IVec S_ 1 := constantI S_ 1 1#1
  let main_v38 : IVec S_ 1 := (fun x v => Host.reduce IntOp.andi x v reducesTo_S1600000_S_d0 h_S_) main_v37 main_c_13
  let main_v39 : IVec S_ 1 := andi main_v33 main_v38
  let main_v40 : IVec S1x1600000 32 := (extractStridedSlice S1x1600000 ![0, 0] · slices_S2x1600000_S1x1600000_0_0) main_arg1
  let main_v41 : IVec S1600000 32 := shapeCast S1600000 main_v40 shapeCasts_S1x1600000_S1600000
  let main_c_14 : IVec S_ 32 := constantI S_ 32 100000#32
  let main_v42 : IVec S1600000 32 := broadcastInDim S1600000 ![] bcast_S_S1600000 main_c_14
  let main_v43 : IVec S1600000 1 := cmpi .slt main_v41 main_v42
  let main_c_15 : IVec S_ 1 := constantI S_ 1 1#1
  let main_v44 : IVec S_ 1 := (fun x v => Host.reduce IntOp.andi x v reducesTo_S1600000_S_d0 h_S_) main_v43 main_c_15
  let main_v45 : IVec S_ 1 := andi main_v39 main_v44
  main_v45

def fn_part1 {F : FTy → Type} [FloatOps F] (main_arg1 : IVec S2x1600000 32) (main_arg5 : FVec F S48 .f32) (main_arg6 : FVec F S48x16 .f32) (main_arg7 : FVec F S16 .f32) (main_v13 : IVec S_ 1) (main_v16 : IVec S48x48 1) : IVec S_ 1 :=
  let main_c_5 : IVec S_ 1 := constantI S_ 1 1#1
  let main_v17 : IVec S_ 1 := (fun x v => Host.reduce IntOp.andi x v reducesTo_S48x48_S_d0_1 h_S_) main_v16 main_c_5
  let main_v18 : IVec S_ 1 := andi main_v13 main_v17
  let main_v19 : FVec F S48 .f32 := Host.absf main_arg5
  let main_cst_6 : FVec F S_ .f32 := constant S_ .f32 0x7F800000#32
  let main_v20 : FVec F S48 .f32 := broadcastInDim S48 ![] bcast_S_S48 main_cst_6
  let main_v21 : IVec S48 1 := cmpf .olt main_v19 main_v20
  let main_c_7 : IVec S_ 1 := constantI S_ 1 1#1
  let main_v22 : IVec S_ 1 := (fun x v => Host.reduce IntOp.andi x v reducesTo_S48_S_d0 h_S_) main_v21 main_c_7
  let main_v23 : IVec S_ 1 := andi main_v18 main_v22
  let main_v24 : FVec F S48x16 .f32 := Host.absf main_arg6
  let main_cst_8 : FVec F S_ .f32 := constant S_ .f32 0x7F800000#32
  let main_v25 : FVec F S48x16 .f32 := broadcastInDim S48x16 ![] bcast_S_S48x16 main_cst_8
  let main_v26 : IVec S48x16 1 := cmpf .olt main_v24 main_v25
  let main_c_9 : IVec S_ 1 := constantI S_ 1 1#1
  let main_v27 : IVec S_ 1 := (fun x v => Host.reduce IntOp.andi x v reducesTo_S48x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_v33

def fn {F : FTy → Type} [FloatOps F] (main_arg0 : FVec F S100000x32 .f32) (main_arg1 : IVec S2x1600000 32) (main_arg2 : FVec F S32x48 .f32) (main_arg3 : FVec F S48 .f32) (main_arg4 : FVec F S48x48 .f32) (main_arg5 : FVec F S48 .f32) (main_arg6 : FVec F S48x16 .f32) (main_arg7 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x48 .f32 := Host.absf main_arg2
  let main_cst_0 : FVec F S_ .f32 := constant S_ .f32 0x7F800000#32
  let main_v5 : FVec F S32x48 .f32 := broadcastInDim S32x48 ![] bcast_S_S32x48 main_cst_0
  let main_v6 : IVec S32x48 1 := cmpf .olt main_v4 main_v5
  let main_c_1 : IVec S_ 1 := constantI S_ 1 1#1
  let main_v7 : IVec S_ 1 := (fun x v => Host.reduce IntOp.andi x v reducesTo_S32x48_S_d0_1 h_S_) main_v6 main_c_1
  let main_v8 : IVec S_ 1 := andi main_v3 main_v7
  let main_v9 : FVec F S48 .f32 := Host.absf main_arg3
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S48x48 .f32 := Host.absf main_arg4
  let main_cst_4 : FVec F S_ .f32 := constant S_ .f32 0x7F800000#32
  let main_v15 : FVec F S48x48 .f32 := broadcastInDim S48x48 ![] bcast_S_S48x48 main_cst_4
  let main_v16 : IVec S48x48 1 := cmpf .olt main_v14 main_v15
  fn_part1 (F := F) main_arg1 main_arg5 main_arg6 main_arg7 main_v13 main_v16
-- ==== Kernel.lean ====
abbrev S100000x32 : Shape := ⟨2, ![100000, 32]⟩
abbrev S2x1600000 : Shape := ⟨2, ![2, 1600000]⟩
abbrev S32x48 : Shape := ⟨2, ![32, 48]⟩
abbrev S48 : Shape := ⟨1, ![48]⟩
abbrev S48x48 : Shape := ⟨2, ![48, 48]⟩
abbrev S48x16 : Shape := ⟨2, ![48, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x48 : Shape := ⟨2, ![100000, 48]⟩
abbrev S10000x32 : Shape := ⟨2, ![10000, 32]⟩
abbrev S10000x48 : Shape := ⟨2, ![10000, 48]⟩
abbrev S1 : Shape := ⟨1, ![1]⟩
abbrev S1x1 : Shape := ⟨2, ![1, 1]⟩
abbrev S1700000x48 : Shape := ⟨2, ![1700000, 48]⟩
abbrev S10000x1 : Shape := ⟨2, ![10000, 1]⟩
abbrev S1x48 : Shape := ⟨2, ![1, 48]⟩
abbrev S100000x16 : Shape := ⟨2, ![100000, 16]⟩
abbrev S10000x16 : Shape := ⟨2, ![10000, 16]⟩
abbrev S1700000x16 : Shape := ⟨2, ![1700000, 16]⟩
abbrev S1x16 : Shape := ⟨2, ![1, 16]⟩

abbrev nBuf : Space → Nat
  | .hbm => 142
  | .vmem => 48
  | .smem => 0
  | _ => 0

abbrev hbmTy0_0 (i : Nat) : BufTy := match i % 128 with
  | 0 => ⟨S100000x32, .f32⟩
  | 1 => ⟨S2x1600000, .i32⟩
  | 2 => ⟨S32x48, .f32⟩
  | 3 => ⟨S48, .f32⟩
  | 4 => ⟨S48x48, .f32⟩
  | 5 => ⟨S48, .f32⟩
  | 6 => ⟨S48x16, .f32⟩
  | 7 => ⟨S16, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S1700000x1, .f32⟩
  | 49 => ⟨S100000x48, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1, .i32⟩
  | 59 => ⟨S_, .i32⟩
  | 60 => ⟨S1700000x1, .i32⟩
  | 61 => ⟨S1700000x1, .i1⟩
  | 62 => ⟨S1x1, .i32⟩
  | 63 => ⟨S1700000x1, .i32⟩
  | 64 => ⟨S1700000x1, .i1⟩
  | 65 => ⟨S1700000x1, .i1⟩
  | 66 => ⟨S_, .i1⟩
  | 67 => ⟨S1700000, .i1⟩
  | 68 => ⟨S1700000x48, .f32⟩
  | 69 => ⟨S1700000x48, .i1⟩
  | 70 => ⟨S_, .f32⟩
  | 71 => ⟨S1700000x48, .f32⟩
  | 72 => ⟨S1700000x48, .f32⟩
  | 73 => ⟨S1700000x48, .f32⟩
  | 74 => ⟨S_, .f32⟩
  | 75 => ⟨S100000x48, .f32⟩
  | 76 => ⟨S1700000x1, .i32⟩
  | 77 => ⟨S100000x48, .f32⟩
  | 78 => ⟨S1x48, .f32⟩
  | 79 => ⟨S100000x48, .f32⟩
  | 80 => ⟨S100000x48, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1, .i32⟩
  | 90 => ⟨S_, .i32⟩
  | 91 => ⟨S1700000x1, .i32⟩
  | 92 => ⟨S1700000x1, .i1⟩
  | 93 => ⟨S1x1, .i32⟩
  | 94 => ⟨S1700000x1, .i32⟩
  | 95 => ⟨S1700000x1, .i1⟩
  | 96 => ⟨S1700000x1, .i1⟩
  | 97 => ⟨S_, .i1⟩
  | 98 => ⟨S1700000, .i1⟩
  | 99 => ⟨S1700000x48, .f32⟩
  | 100 => ⟨S1700000x48, .i1⟩
  | 101 => ⟨S_, .f32⟩
  | 102 => ⟨S1700000x48, .f32⟩
  | 103 => ⟨S1700000x48, .f32⟩
  | 104 => ⟨S1700000x48, .f32⟩
  | 105 => ⟨S_, .f32⟩
  | 106 => ⟨S100000x48, .f32⟩
  | 107 => ⟨S1700000x1, .i32⟩
  | 108 => ⟨S100000x48, .f32⟩
  | 109 => ⟨S1x48, .f32⟩
  | 110 => ⟨S100000x48, .f32⟩
  | 111 => ⟨S100000x16, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1, .i32⟩
  | 121 => ⟨S_, .i32⟩
  | 122 => ⟨S1700000x1, .i32⟩
  | 123 => ⟨S1700000x1, .i1⟩
  | 124 => ⟨S1x1, .i32⟩
  | 125 => ⟨S1700000x1, .i32⟩
  | 126 => ⟨S1700000x1, .i1⟩
  | 127 => ⟨S1700000x1, .i1⟩
  | _ => ⟨S100000x32, .f32⟩

abbrev hbmTy0_1 (i : Nat) : BufTy := match i % 128 with
  | 0 => ⟨S_, .i1⟩
  | 1 => ⟨S1700000, .i1⟩
  | 2 => ⟨S1700000x16, .f32⟩
  | 3 => ⟨S1700000x16, .i1⟩
  | 4 => ⟨S_, .f32⟩
  | 5 => ⟨S1700000x16, .f32⟩
  | 6 => ⟨S1700000x16, .f32⟩
  | 7 => ⟨S1700000x16, .f32⟩
  | 8 => ⟨S_, .f32⟩
  | 9 => ⟨S100000x16, .f32⟩
  | 10 => ⟨S1700000x1, .i32⟩
  | 11 => ⟨S100000x16, .f32⟩
  | 12 => ⟨S1x16, .f32⟩
  | 13 => ⟨S100000x16, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x48, .f32⟩
  | .local _ .vmem, ⟨3, _⟩ => ⟨S10000x48, .f32⟩
  | .local _ .vmem, ⟨4, _⟩ => ⟨S10000x48, .f32⟩
  | .local _ .vmem, ⟨5, _⟩ => ⟨S10000x48, .f32⟩
  | .local _ .vmem, ⟨6, _⟩ => ⟨S10000x48, .f32⟩
  | .local _ .vmem, ⟨7, _⟩ => ⟨S10000x1, .f32⟩
  | .local _ .vmem, ⟨8, _⟩ => ⟨S10000x1, .f32⟩
  | .local _ .vmem, ⟨9, _⟩ => ⟨S10000x48, .f32⟩
  | .local _ .vmem, ⟨10, _⟩ => ⟨S10000x48, .f32⟩
  | .local _ .vmem, ⟨11, _⟩ => ⟨S10000x48, .f32⟩
  | .local _ .vmem, ⟨12, _⟩ => ⟨S10000x48, .f32⟩
  | .local _ .vmem, ⟨13, _⟩ => ⟨S1x48, .f32⟩
  | .local _ .vmem, ⟨14, _⟩ => ⟨S10000x48, .f32⟩
  | .local _ .vmem, ⟨15, _⟩ => ⟨S10000x48, .f32⟩
  | .local _ .vmem, ⟨16, _⟩ => ⟨S10000x48, .f32⟩
  | .local _ .vmem, ⟨17, _⟩ => ⟨S10000x48, .f32⟩
  | .local _ .vmem, ⟨18, _⟩ => ⟨S48x48, .f32⟩
  | .local _ .vmem, ⟨19, _⟩ => ⟨S10000x48, .f32⟩
  | .local _ .vmem, ⟨20, _⟩ => ⟨S10000x48, .f32⟩
  | .local _ .vmem, ⟨21, _⟩ => ⟨S10000x48, .f32⟩
  | .local _ .vmem, ⟨22, _⟩ => ⟨S10000x48, .f32⟩
  | .local _ .vmem, ⟨23, _⟩ => ⟨S10000x1, .f32⟩
  | .local _ .vmem, ⟨24, _⟩ => ⟨S10000x1, .f32⟩
  | .local _ .vmem, ⟨25, _⟩ => ⟨S10000x48, .f32⟩
  | .local _ .vmem, ⟨26, _⟩ => ⟨S10000x48, .f32⟩
  | .local _ .vmem, ⟨27, _⟩ => ⟨S10000x48, .f32⟩
  | .local _ .vmem, ⟨28, _⟩ => ⟨S10000x48, .f32⟩
  | .local _ .vmem, ⟨29, _⟩ => ⟨S1x48, .f32⟩
  | .local _ .vmem, ⟨30, _⟩ => ⟨S10000x48, .f32⟩
  | .local _ .vmem, ⟨31, _⟩ => ⟨S10000x48, .f32⟩
  | .local _ .vmem, ⟨32, _⟩ => ⟨S10000x48, .f32⟩
  | .local _ .vmem, ⟨33, _⟩ => ⟨S10000x48, .f32⟩
  | .local _ .vmem, ⟨34, _⟩ => ⟨S48x16, .f32⟩
  | .local _ .vmem, ⟨35, _⟩ => ⟨S10000x16, .f32⟩
  | .local _ .vmem, ⟨36, _⟩ => ⟨S10000x16, .f32⟩
  | .local _ .vmem, ⟨37, _⟩ => ⟨S10000x16, .f32⟩
  | .local _ .vmem, ⟨38, _⟩ => ⟨S10000x16, .f32⟩
  | .local _ .vmem, ⟨39, _⟩ => ⟨S10000x1, .f32⟩
  | .local _ .vmem, ⟨40, _⟩ => ⟨S10000x1, .f32⟩
  | .local _ .vmem, ⟨41, _⟩ => ⟨S10000x16, .f32⟩
  | .local _ .vmem, ⟨42, _⟩ => ⟨S10000x16, .f32⟩
  | .local _ .vmem, ⟨43, _⟩ => ⟨S10000x16, .f32⟩
  | .local _ .vmem, ⟨44, _⟩ => ⟨S10000x16, .f32⟩
  | .local _ .vmem, ⟨45, _⟩ => ⟨S1x16, .f32⟩
  | .local _ .vmem, ⟨46, _⟩ => ⟨S10000x16, .f32⟩
  | .local _ .vmem, ⟨47, _⟩ => ⟨S10000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v32 : Ref sig .tc := ⟨.hbm, 72, rfl⟩
abbrev main_v33 : Ref sig .tc := ⟨.hbm, 73, rfl⟩
abbrev main_cst_6 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_call2_cst : Ref sig .tc := ⟨.hbm, 101, rfl⟩
abbrev main_call2_v15 : Ref sig .tc := ⟨.hbm, 102, rfl⟩
abbrev main_v40 : Ref sig .tc := ⟨.hbm, 103, rfl⟩
abbrev main_v41 : Ref sig .tc := ⟨.hbm, 104, rfl⟩
abbrev main_cst_7 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_call3_c : Ref sig .tc := ⟨.hbm, 112, rfl⟩
abbrev main_call3_v0 : Ref sig .tc := ⟨.hbm, 113, rfl⟩
abbrev main_call3_v1 : Ref sig .tc := ⟨.hbm, 114, rfl⟩
abbrev main_call3_c_0 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_v5 : Ref sig .tc := ⟨.hbm, 119, rfl⟩
abbrev main_call3_c_1 : Ref sig .tc := ⟨.hbm, 120, rfl⟩
abbrev main_call3_c_2 : Ref sig .tc := ⟨.hbm, 121, rfl⟩
abbrev main_call3_v6 : Ref sig .tc := ⟨.hbm, 122, rfl⟩
abbrev main_call3_v7 : Ref sig .tc := ⟨.hbm, 123, rfl⟩
abbrev main_call3_v8 : Ref sig .tc := ⟨.hbm, 124, rfl⟩
abbrev main_call3_v9 : Ref sig .tc := ⟨.hbm, 125, rfl⟩
abbrev main_call3_v10 : Ref sig .tc := ⟨.hbm, 126, rfl⟩
abbrev main_call3_v11 : Ref sig .tc := ⟨.hbm, 127, rfl⟩
abbrev main_call3_c_3 : Ref sig .tc := ⟨.hbm, 128, rfl⟩
abbrev main_call3_v12 : Ref sig .tc := ⟨.hbm, 129, rfl⟩
abbrev main_call3_v13 : Ref sig .tc := ⟨.hbm, 130, rfl⟩
abbrev main_call3_v14 : Ref sig .tc := ⟨.hbm, 131, rfl⟩
abbrev main_call3_cst : Ref sig .tc := ⟨.hbm, 132, rfl⟩
abbrev main_call3_v15 : Ref sig .tc := ⟨.hbm, 133, rfl⟩
abbrev main_v48 : Ref sig .tc := ⟨.hbm, 134, rfl⟩
abbrev main_v49 : Ref sig .tc := ⟨.hbm, 135, rfl⟩
abbrev main_cst_8 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x48 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x48 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x48 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x48 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S48x48 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x48 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x48 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x48 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x48 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x48 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x48 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x48 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S48x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![170], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x16 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x16 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x16 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x48_S32x48_0_0 : ∀ a, (![0, 0] : Fin 2 → Nat) a + S32x48.size a ≤ S32x48.size a
  h_S32x48 : 0 < S32x48.numel
  inb_S10000x48_S10000x48_0_0 : ∀ a, (![0, 0] : Fin 2 → Nat) a + S10000x48.size a ≤ S10000x48.size a
  h_S10000x48 : 0 < S10000x48.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x48_0 : S1700000.BroadcastsInDim S1700000x48 (![0] : Fin 1 → Fin S1700000x48.rank)
  bcast_S_S1700000x48 : S_.BroadcastsInDim S1700000x48 (![] : Fin 0 → Fin S1700000x48.rank)
  shapeCasts_S10000x48_S10000x48 : S10000x48.ShapeCasts S10000x48
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x48 : S10000x1.Broadcasts S10000x48
  bcast_S_S100000x48 : S_.BroadcastsInDim S100000x48 (![] : Fin 0 → Fin S100000x48.rank)
  shapeCasts_S48_S1x48 : S48.ShapeCasts S1x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S10000x48 : S1x48.Broadcasts S10000x48
  inb_S48x48_S48x48_0_0 : ∀ a, (![0, 0] : Fin 2 → Nat) a + S48x48.size a ≤ S48x48.size a
  h_S48x48 : 0 < S48x48.numel
  inb_S48x16_S48x16_0_0 : ∀ a, (![0, 0] : Fin 2 → Nat) a + S48x16.size a ≤ S48x16.size a
  h_S48x16 : 0 < S48x16.numel
  inb_S10000x16_S10000x16_0_0 : ∀ a, (![0, 0] : Fin 2 → Nat) a + S10000x16.size a ≤ S10000x16.size a
  h_S10000x16 : 0 < S10000x16.numel
  bcast_S1700000_S1700000x16_0 : S1700000.BroadcastsInDim S1700000x16 (![0] : Fin 1 → Fin S1700000x16.rank)
  bcast_S_S1700000x16 : S_.BroadcastsInDim S1700000x16 (![] : Fin 0 → Fin S1700000x16.rank)
  shapeCasts_S10000x16_S10000x16 : S10000x16.ShapeCasts S10000x16
  broadcasts_S10000x1_S10000x16 : S10000x1.Broadcasts S10000x16
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x32_S32x48_S10000x48_1_0_0_1_n_n_wf : DotDims.WF S10000x32 S32x48 S10000x48 [1] [0] [0] [1] [] []
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  dot_S10000x48_S48x48_S10000x48_1_0_0_1_n_n_wf : DotDims.WF S10000x48 S48x48 S10000x48 [1] [0] [0] [1] [] []
  dot_S10000x48_S48x16_S10000x16_1_0_0_1_n_n_wf : DotDims.WF S10000x48 S48x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x48.size a ≤ S32x48.size a
  hwx0_1 : ∀ i : grid0.Coords, EltTy.bits .f32 = 32 ∨ (Rect.block (s := S32x48) S32x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x48.size a ≤ S100000x48.size a
  hwx0_2 : ∀ i : grid0.Coords, EltTy.bits .f32 = 32 ∨ (Rect.block (s := S100000x48) S10000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x48.size a ≤ S1700000x48.size a
  hwx1_0 : ∀ i : grid1.Coords, EltTy.bits .f32 = 32 ∨ (Rect.block (s := S1700000x48) S10000x48.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x48.size a ≤ S1700000x48.size a
  hwx1_2 : ∀ i : grid1.Coords, EltTy.bits .f32 = 32 ∨ (Rect.block (s := S1700000x48) S10000x48.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x48.size a ≤ S100000x48.size a
  hwx2_0 : ∀ i : grid2.Coords, EltTy.bits .f32 = 32 ∨ (Rect.block (s := S100000x48) S10000x48.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x48.size a ≤ S1x48.size a
  hwx2_1 : ∀ i : grid2.Coords, EltTy.bits .f32 = 32 ∨ (Rect.block (s := S1x48) S1x48.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x48.size a ≤ S100000x48.size a
  hwx2_2 : ∀ i : grid2.Coords, EltTy.bits .f32 = 32 ∨ (Rect.block (s := S100000x48) S10000x48.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x48.size a ≤ S100000x48.size a
  hwx3_0 : ∀ i : grid3.Coords, EltTy.bits .f32 = 32 ∨ (Rect.block (s := S100000x48) S10000x48.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S48x48.size a ≤ S48x48.size a
  hwx3_1 : ∀ i : grid3.Coords, EltTy.bits .f32 = 32 ∨ (Rect.block (s := S48x48) S48x48.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x48.size a ≤ S100000x48.size a
  hwx3_2 : ∀ i : grid3.Coords, EltTy.bits .f32 = 32 ∨ (Rect.block (s := S100000x48) S10000x48.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x48.size a ≤ S1700000x48.size a
  hwx4_0 : ∀ i : grid4.Coords, EltTy.bits .f32 = 32 ∨ (Rect.block (s := S1700000x48) S10000x48.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1700000x1.size a
  hwx4_1 : ∀ i : grid4.Coords, EltTy.bits .f32 = 32 ∨ (Rect.block (s := S1700000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x48.size a ≤ S1700000x48.size a
  hwx4_2 : ∀ i : grid4.Coords, EltTy.bits .f32 = 32 ∨ (Rect.block (s := S1700000x48) S10000x48.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x48.size a ≤ S100000x48.size a
  hwx5_0 : ∀ i : grid5.Coords, EltTy.bits .f32 = 32 ∨ (Rect.block (s := S100000x48) S10000x48.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x48.size a ≤ S1x48.size a
  hwx5_1 : ∀ i : grid5.Coords, EltTy.bits .f32 = 32 ∨ (Rect.block (s := S1x48) S1x48.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x48.size a ≤ S100000x48.size a
  hwx5_2 : ∀ i : grid5.Coords, EltTy.bits .f32 = 32 ∨ (Rect.block (s := S100000x48) S10000x48.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x48.size a ≤ S100000x48.size a
  hwx6_0 : ∀ i : grid6.Coords, EltTy.bits .f32 = 32 ∨ (Rect.block (s := S100000x48) S10000x48.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S48x16.size a ≤ S48x16.size a
  hwx6_1 : ∀ i : grid6.Coords, EltTy.bits .f32 = 32 ∨ (Rect.block (s := S48x16) S48x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x16.size a ≤ S100000x16.size a
  hwx6_2 : ∀ i : grid6.Coords, EltTy.bits .f32 = 32 ∨ (Rect.block (s := S100000x16) S10000x16.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x16.size a ≤ S1700000x16.size a
  hwx7_0 : ∀ i : grid7.Coords, EltTy.bits .f32 = 32 ∨ (Rect.block (s := S1700000x16) S10000x16.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S1700000x1.size a
  hwx7_1 : ∀ i : grid7.Coords, EltTy.bits .f32 = 32 ∨ (Rect.block (s := S1700000x1) S10000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x16.size a ≤ S1700000x16.size a
  hwx7_2 : ∀ i : grid7.Coords, EltTy.bits .f32 = 32 ∨ (Rect.block (s := S1700000x16) S10000x16.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x16.size a ≤ S100000x16.size a
  hwx8_0 : ∀ i : grid8.Coords, EltTy.bits .f32 = 32 ∨ (Rect.block (s := S100000x16) S10000x16.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x16.size a ≤ S1x16.size a
  hwx8_1 : ∀ i : grid8.Coords, EltTy.bits .f32 = 32 ∨ (Rect.block (s := S1x16) S1x16.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x16.size a ≤ S100000x16.size a
  hwx8_2 : ∀ i : grid8.Coords, EltTy.bits .f32 = 32 ∨ (Rect.block (s := S100000x16) S10000x16.size (cc8_transform_2 i) (hinb8_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x32_S32x48_S10000x48_1_0_0_1_n_n : DotDims S10000x32 S32x48 S10000x48 where
  lhsContracting := [1]
  rhsContracting := [0]
  lhsNonContracting := [0]
  rhsNonContracting := [1]
  lhsBatch := []
  rhsBatch := []
  wf := dot_S10000x32_S32x48_S10000x48_1_0_0_1_n_n_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def dot_S10000x48_S48x48_S10000x48_1_0_0_1_n_n : DotDims S10000x48 S48x48 S10000x48 where
  lhsContracting := [1]
  rhsContracting := [0]
  lhsNonContracting := [0]
  rhsNonContracting := [1]
  lhsBatch := []
  rhsBatch := []
  wf := dot_S10000x48_S48x48_S10000x48_1_0_0_1_n_n_wf
def dot_S10000x48_S48x16_S10000x16_1_0_0_1_n_n : DotDims S10000x48 S48x16 S10000x16 where
  lhsContracting := [1]
  rhsContracting := [0]
  lhsNonContracting := [0]
  rhsNonContracting := [1]
  lhsBatch := []
  rhsBatch := []
  wf := dot_S10000x48_S48x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S10000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S10000x48.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v36) S10000x48.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x48.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S10000x48.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S10000x48.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S48x48.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S10000x48.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v40) S10000x48.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v41) S10000x48.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v44) S10000x48.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45) S1x48.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v46) S10000x48.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v46) S10000x48.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S48x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v47) S10000x16.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v48) S10000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v30) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v49) S10000x16.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v52) S10000x16.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v53) S1x16.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v54) S10000x16.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x48 : Shape := ⟨2, ![32, 48]⟩
abbrev S48 : Shape := ⟨1, ![48]⟩
abbrev S48x48 : Shape := ⟨2, ![48, 48]⟩
abbrev S48x16 : Shape := ⟨2, ![48, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x48 : Shape := ⟨2, ![100000, 48]⟩
abbrev S1700000x48 : Shape := ⟨2, ![1700000, 48]⟩
abbrev S1x48 : Shape := ⟨2, ![1, 48]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 114
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x48, .f32⟩
  | .hbm, ⟨3, _⟩ => ⟨S48, .f32⟩
  | .hbm, ⟨4, _⟩ => ⟨S48x48, .f32⟩
  | .hbm, ⟨5, _⟩ => ⟨S48, .f32⟩
  | .hbm, ⟨6, _⟩ => ⟨S48x16, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x48, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x48, .f32⟩
  | .hbm, ⟨58, _⟩ => ⟨S1700000x1, .f32⟩
  | .hbm, ⟨59, _⟩ => ⟨S1700000x48, .f32⟩
  | .hbm, ⟨60, _⟩ => ⟨S1700000x48, .f32⟩
  | .hbm, ⟨61, _⟩ => ⟨S_, .f32⟩
  | .hbm, ⟨62, _⟩ => ⟨S100000x48, .f32⟩
  | .hbm, ⟨63, _⟩ => ⟨S1700000x1, .i32⟩
  | .hbm, ⟨64, _⟩ => ⟨S100000x48, .f32⟩
  | .hbm, ⟨65, _⟩ => ⟨S1x48, .f32⟩
  | .hbm, ⟨66, _⟩ => ⟨S100000x48, .f32⟩
  | .hbm, ⟨67, _⟩ => ⟨S100000x48, .f32⟩
  | .hbm, ⟨68, _⟩ => ⟨S_, .f32⟩
  | .hbm, ⟨69, _⟩ => ⟨S100000x48, .f32⟩
  | .hbm, ⟨70, _⟩ => ⟨S100000x48, .f32⟩
  | .hbm, ⟨71, _⟩ => ⟨S100000x48, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x48, .f32⟩
  | .hbm, ⟨81, _⟩ => ⟨S1700000x1, .f32⟩
  | .hbm, ⟨82, _⟩ => ⟨S1700000x48, .f32⟩
  | .hbm, ⟨83, _⟩ => ⟨S1700000x48, .f32⟩
  | .hbm, ⟨84, _⟩ => ⟨S_, .f32⟩
  | .hbm, ⟨85, _⟩ => ⟨S100000x48, .f32⟩
  | .hbm, ⟨86, _⟩ => ⟨S1700000x1, .i32⟩
  | .hbm, ⟨87, _⟩ => ⟨S100000x48, .f32⟩
  | .hbm, ⟨88, _⟩ => ⟨S1x48, .f32⟩
  | .hbm, ⟨89, _⟩ => ⟨S100000x48, .f32⟩
  | .hbm, ⟨90, _⟩ => ⟨S100000x48, .f32⟩
  | .hbm, ⟨91, _⟩ => ⟨S_, .f32⟩
  | .hbm, ⟨92, _⟩ => ⟨S100000x48, .f32⟩
  | .hbm, ⟨93, _⟩ => ⟨S100000x48, .f32⟩
  | .hbm, ⟨94, _⟩ => ⟨S100000x16, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x16, .f32⟩
  | .hbm, ⟨104, _⟩ => ⟨S1700000x1, .f32⟩
  | .hbm, ⟨105, _⟩ => ⟨S1700000x16, .f32⟩
  | .hbm, ⟨106, _⟩ => ⟨S1700000x16, .f32⟩
  | .hbm, ⟨107, _⟩ => ⟨S_, .f32⟩
  | .hbm, ⟨108, _⟩ => ⟨S100000x16, .f32⟩
  | .hbm, ⟨109, _⟩ => ⟨S1700000x1, .i32⟩
  | .hbm, ⟨110, _⟩ => ⟨S100000x16, .f32⟩
  | .hbm, ⟨111, _⟩ => ⟨S1x16, .f32⟩
  | .hbm, ⟨112, _⟩ => ⟨S100000x16, .f32⟩
  | .hbm, ⟨113, _⟩ => ⟨S100000x16, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x48_0_1 : S1700000x1.BroadcastsInDim S1700000x48 (![0, 1] : Fin 2 → Fin S1700000x48.rank)
  bcast_S_S100000x48 : S_.BroadcastsInDim S100000x48 (![] : Fin 0 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x48_S100000x48_1_0_0_1_n_n_wf : DotDims.WF S100000x32 S32x48 S100000x48 [1] [0] [0] [1] [] []
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  dot_S100000x48_S48x48_S100000x48_1_0_0_1_n_n_wf : DotDims.WF S100000x48 S48x48 S100000x48 [1] [0] [0] [1] [] []
  dot_S100000x48_S48x16_S100000x16_1_0_0_1_n_n_wf : DotDims.WF S100000x48 S48x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x48_S100000x48_1_0_0_1_n_n : DotDims S100000x32 S32x48 S100000x48 where
  lhsContracting := [1]
  rhsContracting := [0]
  lhsNonContracting := [0]
  rhsNonContracting := [1]
  lhsBatch := []
  rhsBatch := []
  wf := dot_S100000x32_S32x48_S100000x48_1_0_0_1_n_n_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def dot_S100000x48_S48x48_S100000x48_1_0_0_1_n_n : DotDims S100000x48 S48x48 S100000x48 where
  lhsContracting := [1]
  rhsContracting := [0]
  lhsNonContracting := [0]
  rhsNonContracting := [1]
  lhsBatch := []
  rhsBatch := []
  wf := dot_S100000x48_S48x48_S100000x48_1_0_0_1_n_n_wf
def dot_S100000x48_S48x16_S100000x16_1_0_0_1_n_n : DotDims S100000x48 S48x16 S100000x16 where
  lhsContracting := [1]
  rhsContracting := [0]
  lhsNonContracting := [0]
  rhsNonContracting := [1]
  lhsBatch := []
  rhsBatch := []
  wf := dot_S100000x48_S48x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KStages.lean ====
/-
  The host side of the kernel's program as named functions of arrays: the edge lists with the self loops appended, the
  symmetric normalisation of an edge, the row gather that fills out-of-range rows, the scatter-add over destinations and
  the two reshapes. Each is the program's own chain of operations, named so that later statements stay short.
-/
import proofs.«404347_j14139032338889_1_alg».proof.KernelIdeal
import Idealize.ShloMosaic.PureOps.Ideal

noncomputable section

namespace Cert.KernelIdeal.KS

open Cert.KernelIdeal Idealize.ShloMosaic

variable {F : FTy → Type} [FloatOps F] [Facts]
open Facts₀ Facts

/-- Row r of the 2 × E edge array as a vector, followed by 0, 1, …, N − 1 (the self loops). -/
def srcFull (e : IVec S2x1600000 32) : IVec S1700000 32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

def dstFull (e : IVec S2x1600000 32) : IVec S1700000 32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A negative index counts from the end: N is added to it. -/
def wrap (idx : IVec S1700000 32) : IVec S1700000 32 :=
  select (cmpi .slt idx (broadcastInDim S1700000 ![] bcast_S_S1700000 (constantI S_ 32 0#32)))
    (addi idx (broadcastInDim S1700000 ![] bcast_S_S1700000 (constantI S_ 32 100000#32))) idx

/-- A vector of indices as a one-column array. -/
def col (idx : IVec S1700000 32) : IVec S1700000x1 32 :=
  broadcastInDim S1700000x1 ![0] bcast_S1700000_S1700000x1_0 idx

/-- The in-degree of every node: ones scattered over the destinations. -/
def deg (e : IVec S2x1600000 32) : FVec F S100000 .f32 :=
  Host.scatterAdd scatter_S100000_S1700000x1_S1700000_n_0_0_1
    (broadcastInDim S100000 ![] bcast_S_S100000 (constant S_ .f32 0x00000000#32))
    (col (dstFull e))
    (broadcastInDim S1700000 ![] bcast_S_S1700000 (constant S_ .f32 0x3F800000#32))

/-- deg^(-1/2) where the degree is positive, 0 elsewhere. -/
def dinv (e : IVec S2x1600000 32) : FVec F S100000 .f32 :=
  select (cmpf .ogt (deg (F := F) e) (broadcastInDim S100000 ![] bcast_S_S100000 (constant S_ .f32 0x00000000#32)))
    (Host.rsqrt (deg (F := F) e))
    (broadcastInDim S100000 ![] bcast_S_S100000 (id (constant S_ .f32 0x00000000#32)))

/-- The weight of an edge: dinv at its source times dinv at its destination. -/
def norm (e : IVec S2x1600000 32) : FVec F S1700000 .f32 :=
  mulf (Host.gather gather_S100000_S1700000x1_S1700000_n_0_n_n_0_1_1 (dinv (F := F) e) (col (wrap (srcFull e))))
    (Host.gather gather_S100000_S1700000x1_S1700000_n_0_n_n_0_1_1 (dinv (F := F) e) (col (wrap (dstFull e))))

/-- The weights as a one-column array. -/
def norm2d (e : IVec S2x1600000 32) : FVec F S1700000x1 .f32 :=
  shapeCast S1700000x1 (norm (F := F) e) shapeCasts_S1700000_S1700000x1

/-- Which positions hold an index inside 0 … N − 1 (after the wrap). -/
def inRange (idx : IVec S1700000 32) : IVec S1700000 1 :=
  Host.reduce IntOp.andi
    (andi (cmpi .sge (col (wrap idx)) (broadcastInDim S1700000x1 ![] bcast_S_S1700000x1 (constantI S_ 32 0#32)))
      (cmpi .sle (col (wrap idx)) (broadcastInDim S1700000x1 ![0, 1] bcast_S1x1_S1700000x1_0_1 (broadcastInDim S1x1 ![1] bcast_S1_S1x1_1 (constantI S1 32 99999#32)))))
    (constantI S_ 1 1#1) reducesTo_S1700000x1_S1700000_d1 h_S_

/-- The rows of x at the given indices; a row whose index is out of range is filled with the fill word. -/
def take48 (x : FVec F S100000x48 .f32) (idx : IVec S1700000 32) : FVec F S1700000x48 .f32 :=
  select (broadcastInDim S1700000x48 ![0] bcast_S1700000_S1700000x48_0 (inRange idx))
    (Host.gather gather_S100000x48_S1700000x1_S1700000x48_1_0_n_n_0_1_148 x (col (wrap idx)))
    (broadcastInDim S1700000x48 ![] bcast_S_S1700000x48 (constant S_ .f32 0x7FC00000#32))

def take16 (x : FVec F S100000x16 .f32) (idx : IVec S1700000 32) : FVec F S1700000x16 .f32 :=
  select (broadcastInDim S1700000x16 ![0] bcast_S1700000_S1700000x16_0 (inRange idx))
    (Host.gather gather_S100000x16_S1700000x1_S1700000x16_1_0_n_n_0_1_116 x (col (wrap idx)))
    (broadcastInDim S1700000x16 ![] bcast_S_S1700000x16 (constant S_ .f32 0x7FC00000#32))

/-- The messages summed over their destinations, from zero. -/
def agg48 (idx : IVec S1700000 32) (u : FVec F S1700000x48 .f32) : FVec F S100000x48 .f32 :=
  Host.scatterAdd scatter_S100000x48_S1700000x1_S1700000x48_1_0_0_1
    (broadcastInDim S100000x48 ![] bcast_S_S100000x48 (constant S_ .f32 0x00000000#32)) (col idx) u

def agg16 (idx : IVec S1700000 32) (u : FVec F S1700000x16 .f32) : FVec F S100000x16 .f32 :=
  Host.scatterAdd scatter_S100000x16_S1700000x1_S1700000x16_1_0_0_1
    (broadcastInDim S100000x16 ![] bcast_S_S100000x16 (constant S_ .f32 0x00000000#32)) (col idx) u

/-- A bias vector as a one-row array. -/
def row48 (b : FVec F S48 .f32) : FVec F S1x48 .f32 := shapeCast S1x48 b shapeCasts_S48_S1x48
def row16 (b : FVec F S16 .f32) : FVec F S1x16 .f32 := shapeCast S1x16 b shapeCasts_S16_S1x16

/-! ## One layer, and the three layers, over the extended reals -/

/-- The shape facts of the broadcasts the layers use (a weight column along a row, a bias row down the rows, a scalar
    over the array). They are propositions: any proof serves. -/
structure Bc : Prop where
  c48 : S1700000x1.BroadcastsInDim S1700000x48 (![0, 1] : Fin 2 → Fin S1700000x48.rank)
  c16 : S1700000x1.BroadcastsInDim S1700000x16 (![0, 1] : Fin 2 → Fin S1700000x16.rank)
  r48 : S1x48.BroadcastsInDim S100000x48 (![0, 1] : Fin 2 → Fin S100000x48.rank)
  r16 : S1x16.BroadcastsInDim S100000x16 (![0, 1] : Fin 2 → Fin S100000x16.rank)
  z48 : S_.BroadcastsInDim S100000x48 (![] : Fin 0 → Fin S100000x48.rank)

/-- Every message times its edge's weight. -/
def scale48 (bc : Bc) (u : FVec Ideal S1700000x48 .f32) (n : FVec Ideal S1700000x1 .f32) : FVec Ideal S1700000x48 .f32 :=
  mulf u (broadcastInDim S1700000x48 ![0, 1] bc.c48 n)
def scale16 (bc : Bc) (u : FVec Ideal S1700000x16 .f32) (n : FVec Ideal S1700000x1 .f32) : FVec Ideal S1700000x16 .f32 :=
  mulf u (broadcastInDim S1700000x16 ![0, 1] bc.c16 n)

/-- The aggregate plus the bias row, cut below at 0. -/
def biasRelu48 (bc : Bc) (a : FVec Ideal S100000x48 .f32) (b : FVec Ideal S1x48 .f32) : FVec Ideal S100000x48 .f32 :=
  maximumf (addf a (broadcastInDim S100000x48 ![0, 1] bc.r48 b)) (broadcastInDim S100000x48 ![] bc.z48 (constant S_ .f32 0x00000000#32))
/-- The aggregate plus the bias row (the last layer has no cut). -/
def bias16 (bc : Bc) (a : FVec Ideal S100000x16 .f32) (b : FVec Ideal S1x16 .f32) : FVec Ideal S100000x16 .f32 :=
  addf a (broadcastInDim S100000x16 ![0, 1] bc.r16 b)

/-- One hidden layer after its linear map: gather by source, weigh, sum by destination, add the bias, cut at 0. -/
def conv48 (bc : Bc) (lin : FVec Ideal S100000x48 .f32) (e : IVec S2x1600000 32) (b : FVec Ideal S48 .f32) : FVec Ideal S100000x48 .f32 :=
  biasRelu48 bc (agg48 (dstFull e) (scale48 bc (take48 lin (srcFull e)) (norm2d e))) (row48 b)
/-- The output layer after its linear map. -/
def conv16 (bc : Bc) (lin : FVec Ideal S100000x16 .f32) (e : IVec S2x1600000 32) (b : FVec Ideal S16 .f32) : FVec Ideal S100000x16 .f32 :=
  bias16 bc (agg16 (dstFull e) (scale16 bc (take16 lin (srcFull e)) (norm2d e))) (row16 b)

/-- The three layers. -/
def out (bc : Bc) (x : FVec Ideal S100000x32 .f32) (e : IVec S2x1600000 32) (w1 : FVec Ideal S32x48 .f32) (b1 : FVec Ideal S48 .f32)
    (w2 : FVec Ideal S48x48 .f32) (b2 : FVec Ideal S48 .f32) (w3 : FVec Ideal S48x16 .f32) (b3 : FVec Ideal S16 .f32) : FVec Ideal S100000x16 .f32 :=
  conv16 bc (Host.dotGeneral (DotDims.plain 100000 48 16) none
    (conv48 bc (Host.dotGeneral (DotDims.plain 100000 48 48) none
      (conv48 bc (Host.dotGeneral (DotDims.plain 100000 32 48) none x w1) e b1) w2) e b2) w3) e b3

end Cert.KernelIdeal.KS

end
-- ==== Proof.Carry.lean ====
/-
  Buffers that a stretch of the program does not write keep their contents across it: the arguments up to the segment
  that reads them, and the edge lists and the edge weights from the boundary where they are computed to each later use.
-/
import proofs.«404347_j14139032338889_1_alg».proof.Proof.Gen.KernelIdeal.Frame
import proofs.«404347_j14139032338889_1_alg».proof.Proof.KStages

set_option maxRecDepth 16384

noncomputable section

namespace Cert.KernelIdeal.Carry

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- A stretch of host operations leaves a buffer alone when none of its operations writes it: each operation writes one
    buffer, and that buffer is told apart from the carried one as a reference. -/
local macro "host_keep " ops:ident : tactic =>
  `(tactic| (
    refine StableHlo.after_of_forall_not_mem _ _ (List.forall_iff_forall_mem.mp ?_)
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)))

/-! ## The arguments, at the boundary where a segment reads them

No host operation writes an argument, and a region the walk crosses has it among none of its arrays (the region that
reads it comes after the boundary), so each walk goes back to the launch memory. -/

theorem W0_arg1 (c : Dev nD) : W0 m ρ c (Proc.devRef .tc main_arg1) = m ((c : Thread nD τ).loc main_arg1) := rfl
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by host_keep hostOps0_2
    _ = W1 m ρ c (Proc.devRef .tc main_arg0) := by host_keep hostOps0_1
    _ = W0 m ρ c (Proc.devRef .tc main_arg0) := by host_keep hostOps0
    _ = m ((c : Thread nD τ).loc main_arg0) := rfl
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by host_keep hostOps0_2
    _ = W1 m ρ c (Proc.devRef .tc main_arg2) := by host_keep hostOps0_1
    _ = W0 m ρ c (Proc.devRef .tc main_arg2) := by host_keep hostOps0
    _ = m ((c : Thread nD τ).loc main_arg2) := rfl
theorem W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by host_keep hostOps1
    _ = W3 m ρ c (Proc.devRef .tc main_arg3) := W4_of_ne m ρ c main_arg3 (by decide)
    _ = W2 m ρ c (Proc.devRef .tc main_arg3) := by host_keep hostOps0_2
    _ = W1 m ρ c (Proc.devRef .tc main_arg3) := by host_keep hostOps0_1
    _ = W0 m ρ c (Proc.devRef .tc main_arg3) := by host_keep hostOps0
    _ = m ((c : Thread nD τ).loc main_arg3) := rfl
theorem W8_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := by host_keep hostOps2
    _ = W5 m ρ c (Proc.devRef .tc main_arg4) := W6_of_ne m ρ c main_arg4 (by decide)
    _ = W4 m ρ c (Proc.devRef .tc main_arg4) := by host_keep hostOps1
    _ = W3 m ρ c (Proc.devRef .tc main_arg4) := W4_of_ne m ρ c main_arg4 (by decide)
    _ = W2 m ρ c (Proc.devRef .tc main_arg4) := by host_keep hostOps0_2
    _ = W1 m ρ c (Proc.devRef .tc main_arg4) := by host_keep hostOps0_1
    _ = W0 m ρ c (Proc.devRef .tc main_arg4) := by host_keep hostOps0
    _ = m ((c : Thread nD τ).loc main_arg4) := rfl
theorem W11_arg5 (c : Dev nD) : W11 m ρ c (Proc.devRef .tc main_arg5) = m ((c : Thread nD τ).loc main_arg5) :=
  calc W11 m ρ c (Proc.devRef .tc main_arg5)
    _ = W10 m ρ c (Proc.devRef .tc main_arg5) := W11_of_ne m ρ c main_arg5 (by decide)
    _ = W9 m ρ c (Proc.devRef .tc main_arg5) := by host_keep hostOps4
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := by host_keep hostOps2
    _ = W5 m ρ c (Proc.devRef .tc main_arg5) := W6_of_ne m ρ c main_arg5 (by decide)
    _ = W4 m ρ c (Proc.devRef .tc main_arg5) := by host_keep hostOps1
    _ = W3 m ρ c (Proc.devRef .tc main_arg5) := W4_of_ne m ρ c main_arg5 (by decide)
    _ = W2 m ρ c (Proc.devRef .tc main_arg5) := by host_keep hostOps0_2
    _ = W1 m ρ c (Proc.devRef .tc main_arg5) := by host_keep hostOps0_1
    _ = W0 m ρ c (Proc.devRef .tc main_arg5) := by host_keep hostOps0
    _ = m ((c : Thread nD τ).loc main_arg5) := rfl
theorem W13_arg6 (c : Dev nD) : W13 m ρ c (Proc.devRef .tc main_arg6) = m ((c : Thread nD τ).loc main_arg6) :=
  calc W13 m ρ c (Proc.devRef .tc main_arg6)
    _ = W12 m ρ c (Proc.devRef .tc main_arg6) := W13_of_ne m ρ c main_arg6 (by decide)
    _ = W11 m ρ c (Proc.devRef .tc main_arg6) := by host_keep hostOps5
    _ = W10 m ρ c (Proc.devRef .tc main_arg6) := W11_of_ne m ρ c main_arg6 (by decide)
    _ = W9 m ρ c (Proc.devRef .tc main_arg6) := by host_keep hostOps4
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := by host_keep hostOps2
    _ = W5 m ρ c (Proc.devRef .tc main_arg6) := W6_of_ne m ρ c main_arg6 (by decide)
    _ = W4 m ρ c (Proc.devRef .tc main_arg6) := by host_keep hostOps1
    _ = W3 m ρ c (Proc.devRef .tc main_arg6) := W4_of_ne m ρ c main_arg6 (by decide)
    _ = W2 m ρ c (Proc.devRef .tc main_arg6) := by host_keep hostOps0_2
    _ = W1 m ρ c (Proc.devRef .tc main_arg6) := by host_keep hostOps0_1
    _ = W0 m ρ c (Proc.devRef .tc main_arg6) := by host_keep hostOps0
    _ = m ((c : Thread nD τ).loc main_arg6) := rfl
theorem W16_arg7 (c : Dev nD) : W16 m ρ c (Proc.devRef .tc main_arg7) = m ((c : Thread nD τ).loc main_arg7) :=
  calc W16 m ρ c (Proc.devRef .tc main_arg7)
    _ = W15 m ρ c (Proc.devRef .tc main_arg7) := W16_of_ne m ρ c main_arg7 (by decide)
    _ = W14 m ρ c (Proc.devRef .tc main_arg7) := by host_keep hostOps7
    _ = W13 m ρ c (Proc.devRef .tc main_arg7) := W14_of_ne m ρ c main_arg7 (by decide)
    _ = W12 m ρ c (Proc.devRef .tc main_arg7) := W13_of_ne m ρ c main_arg7 (by decide)
    _ = W11 m ρ c (Proc.devRef .tc main_arg7) := by host_keep hostOps5
    _ = W10 m ρ c (Proc.devRef .tc main_arg7) := W11_of_ne m ρ c main_arg7 (by decide)
    _ = W9 m ρ c (Proc.devRef .tc main_arg7) := by host_keep hostOps4
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := by host_keep hostOps2
    _ = W5 m ρ c (Proc.devRef .tc main_arg7) := W6_of_ne m ρ c main_arg7 (by decide)
    _ = W4 m ρ c (Proc.devRef .tc main_arg7) := by host_keep hostOps1
    _ = W3 m ρ c (Proc.devRef .tc main_arg7) := W4_of_ne m ρ c main_arg7 (by decide)
    _ = W2 m ρ c (Proc.devRef .tc main_arg7) := by host_keep hostOps0_2
    _ = W1 m ρ c (Proc.devRef .tc main_arg7) := by host_keep hostOps0_1
    _ = W0 m ρ c (Proc.devRef .tc main_arg7) := by host_keep hostOps0
    _ = m ((c : Thread nD τ).loc main_arg7) := rfl

/-! ## The source list, the destination list and the weights, from where they are computed to where they are read

The two edge lists are written by the first host stretch only and are no region's array. The weights are written by the
last operation of the third host stretch; regions 1 and 4 read them through their second input window, which the
pipeline hands back as it found it. Each later boundary is reached from the one before it. -/

theorem W4_v5 (c : Dev nD) : W4 m ρ c (Proc.devRef .tc main_v5) = W1 m ρ c (Proc.devRef .tc main_v5) :=
  calc W4 m ρ c (Proc.devRef .tc main_v5)
    _ = W3 m ρ c (Proc.devRef .tc main_v5) := W4_of_ne m ρ c main_v5 (by decide)
    _ = W2 m ρ c (Proc.devRef .tc main_v5) := by host_keep hostOps0_2
    _ = W1 m ρ c (Proc.devRef .tc main_v5) := by host_keep hostOps0_1
theorem W9_v5 (c : Dev nD) : W9 m ρ c (Proc.devRef .tc main_v5) = W1 m ρ c (Proc.devRef .tc main_v5) :=
  calc W9 m ρ c (Proc.devRef .tc main_v5)
    _ = W8 m ρ c (Proc.devRef .tc main_v5) := W9_of_ne m ρ c main_v5 (by decide)
    _ = W7 m ρ c (Proc.devRef .tc main_v5) := W8_of_ne m ρ c main_v5 (by decide)
    _ = W6 m ρ c (Proc.devRef .tc main_v5) := by host_keep hostOps2
    _ = W5 m ρ c (Proc.devRef .tc main_v5) := W6_of_ne m ρ c main_v5 (by decide)
    _ = W4 m ρ c (Proc.devRef .tc main_v5) := by host_keep hostOps1
    _ = W1 m ρ c (Proc.devRef .tc main_v5) := W4_v5 m ρ c
theorem W14_v5 (c : Dev nD) : W14 m ρ c (Proc.devRef .tc main_v5) = W1 m ρ c (Proc.devRef .tc main_v5) :=
  calc W14 m ρ c (Proc.devRef .tc main_v5)
    _ = W13 m ρ c (Proc.devRef .tc main_v5) := W14_of_ne m ρ c main_v5 (by decide)
    _ = W12 m ρ c (Proc.devRef .tc main_v5) := W13_of_ne m ρ c main_v5 (by decide)
    _ = W11 m ρ c (Proc.devRef .tc main_v5) := by host_keep hostOps5
    _ = W10 m ρ c (Proc.devRef .tc main_v5) := W11_of_ne m ρ c main_v5 (by decide)
    _ = W9 m ρ c (Proc.devRef .tc main_v5) := by host_keep hostOps4
    _ = W1 m ρ c (Proc.devRef .tc main_v5) := W9_v5 m ρ c
theorem W6_v6 (c : Dev nD) : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by host_keep hostOps1
    _ = W3 m ρ c (Proc.devRef .tc main_v6) := W4_of_ne m ρ c main_v6 (by decide)
    _ = W2 m ρ c (Proc.devRef .tc main_v6) := by host_keep hostOps0_2
    _ = W1 m ρ c (Proc.devRef .tc main_v6) := by host_keep hostOps0_1
theorem W11_v6 (c : Dev nD) : W11 m ρ c (Proc.devRef .tc main_v6) = W1 m ρ c (Proc.devRef .tc main_v6) :=
  calc W11 m ρ c (Proc.devRef .tc main_v6)
    _ = W10 m ρ c (Proc.devRef .tc main_v6) := W11_of_ne m ρ c main_v6 (by decide)
    _ = W9 m ρ c (Proc.devRef .tc main_v6) := by host_keep hostOps4
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by host_keep hostOps2
    _ = W1 m ρ c (Proc.devRef .tc main_v6) := W6_v6 m ρ c
theorem W16_v6 (c : Dev nD) : W16 m ρ c (Proc.devRef .tc main_v6) = W1 m ρ c (Proc.devRef .tc main_v6) :=
  calc W16 m ρ c (Proc.devRef .tc main_v6)
    _ = W15 m ρ c (Proc.devRef .tc main_v6) := W16_of_ne m ρ c main_v6 (by decide)
    _ = W14 m ρ c (Proc.devRef .tc main_v6) := by host_keep hostOps7
    _ = W13 m ρ c (Proc.devRef .tc main_v6) := W14_of_ne m ρ c main_v6 (by decide)
    _ = W12 m ρ c (Proc.devRef .tc main_v6) := W13_of_ne m ρ c main_v6 (by decide)
    _ = W11 m ρ c (Proc.devRef .tc main_v6) := by host_keep hostOps5
    _ = W1 m ρ c (Proc.devRef .tc main_v6) := W11_v6 m ρ c
theorem W5_v30 (c : Dev nD) : W5 m ρ c (Proc.devRef .tc main_v30) = W3 m ρ c (Proc.devRef .tc main_v30) :=
  calc W5 m ρ c (Proc.devRef .tc main_v30)
    _ = W4 m ρ c (Proc.devRef .tc main_v30) := by host_keep hostOps1
    _ = W3 m ρ c (Proc.devRef .tc main_v30) := W4_of_ne m ρ c main_v30 (by decide)
theorem W10_v30 (c : Dev nD) : W10 m ρ c (Proc.devRef .tc main_v30) = W3 m ρ c (Proc.devRef .tc main_v30) :=
  calc W10 m ρ c (Proc.devRef .tc main_v30)
    _ = W9 m ρ c (Proc.devRef .tc main_v30) := by host_keep hostOps4
    _ = W8 m ρ c (Proc.devRef .tc main_v30) := W9_of_ne m ρ c main_v30 (by decide)
    _ = W7 m ρ c (Proc.devRef .tc main_v30) := W8_of_ne m ρ c main_v30 (by decide)
    _ = W6 m ρ c (Proc.devRef .tc main_v30) := by host_keep hostOps2
    _ = W5 m ρ c (Proc.devRef .tc main_v30) := (W6_arr m ρ c 1).trans (((dat1 (V5 m ρ) c).arrAt_in 1 rfl _).trans (A_eq1 (V5 m ρ) c 1))
    _ = W3 m ρ c (Proc.devRef .tc main_v30) := W5_v30 m ρ c
theorem W15_v30 (c : Dev nD) : W15 m ρ c (Proc.devRef .tc main_v30) = W3 m ρ c (Proc.devRef .tc main_v30) :=
  calc W15 m ρ c (Proc.devRef .tc main_v30)
    _ = W14 m ρ c (Proc.devRef .tc main_v30) := by host_keep hostOps7
    _ = W13 m ρ c (Proc.devRef .tc main_v30) := W14_of_ne m ρ c main_v30 (by decide)
    _ = W12 m ρ c (Proc.devRef .tc main_v30) := W13_of_ne m ρ c main_v30 (by decide)
    _ = W11 m ρ c (Proc.devRef .tc main_v30) := by host_keep hostOps5
    _ = W10 m ρ c (Proc.devRef .tc main_v30) := (W11_arr m ρ c 1).trans (((dat4 (V10 m ρ) c).arrAt_in 1 rfl _).trans (A_eq4 (V10 m ρ) c 1))
    _ = W3 m ρ c (Proc.devRef .tc main_v30) := W10_v30 m ρ c

end Cert.KernelIdeal.Carry

end
-- ==== Proof.HostVals.lean ====
/-
  What each stretch of host operations leaves in the buffers a later segment reads, as the named functions of
  KStages applied to the contents at the stretch's entry.
-/
import proofs.«404347_j14139032338889_1_alg».proof.Proof.Gen.KernelIdeal.Frame
import proofs.«404347_j14139032338889_1_alg».proof.Proof.KStages

set_option maxRecDepth 16384

noncomputable section

namespace Cert.KernelIdeal.HostVals

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## Typed references: a value moved to its buffer's type and back is itself

The operations of a called function are stated over references that carry the value's type; a value is moved to
the buffer's own type on writing and back on reading. Both moves are along an equation between equal types. -/

/-- Written then read through one typed reference: the value. -/
theorem ofBuf_toBuf {T : BufTy} (x : StableHlo.TRef sig T) (v : T.Contents (Elt F)) : x.ofBuf (x.toBuf v) = v := by
  obtain ⟨r, h, h2, h3⟩ := x
  subst h
  rfl

/-! At a literal reference each move alone is the identity. -/

theorem ofBuf_v5 (h1 h2 h3) (v : (Proc.devRef (τ := τ) .tc main_v5).ty.Contents (Elt F)) :
    (StableHlo.TRef.of main_v5 h1 h2 h3 : StableHlo.TRef sig ⟨S1700000, .i32⟩).ofBuf v = v := rfl
theorem ofBuf_v31 (h1 h2 h3) (v : (Proc.devRef (τ := τ) .tc main_v31).ty.Contents (Elt F)) :
    (StableHlo.TRef.of main_v31 h1 h2 h3 : StableHlo.TRef sig ⟨S100000x48, .f32⟩).ofBuf v = v := rfl
theorem toBuf_v32 (h1 h2 h3) (v : (⟨S1700000x48, .f32⟩ : BufTy).Contents (Elt F)) :
    (StableHlo.TRef.of main_v32 h1 h2 h3 : StableHlo.TRef sig ⟨S1700000x48, .f32⟩).toBuf v = v := rfl
theorem ofBuf_v39 (h1 h2 h3) (v : (Proc.devRef (τ := τ) .tc main_v39).ty.Contents (Elt F)) :
    (StableHlo.TRef.of main_v39 h1 h2 h3 : StableHlo.TRef sig ⟨S100000x48, .f32⟩).ofBuf v = v := rfl
theorem toBuf_v40 (h1 h2 h3) (v : (⟨S1700000x48, .f32⟩ : BufTy).Contents (Elt F)) :
    (StableHlo.TRef.of main_v40 h1 h2 h3 : StableHlo.TRef sig ⟨S1700000x48, .f32⟩).toBuf v = v := rfl
theorem ofBuf_v47 (h1 h2 h3) (v : (Proc.devRef (τ := τ) .tc main_v47).ty.Contents (Elt F)) :
    (StableHlo.TRef.of main_v47 h1 h2 h3 : StableHlo.TRef sig ⟨S100000x16, .f32⟩).ofBuf v = v := rfl
theorem toBuf_v48 (h1 h2 h3) (v : (⟨S1700000x16, .f32⟩ : BufTy).Contents (Elt F)) :
    (StableHlo.TRef.of main_v48 h1 h2 h3 : StableHlo.TRef sig ⟨S1700000x16, .f32⟩).toBuf v = v := rfl
theorem ofBuf_cst_2 (h1 h2 h3) (v : (Proc.devRef (τ := τ) .tc main_cst_2).ty.Contents (Elt F)) :
    (StableHlo.TRef.of main_cst_2 h1 h2 h3 : StableHlo.TRef sig ⟨S_, .f32⟩).ofBuf v = v := rfl
theorem ofBuf_v12 (h1 h2 h3) (v : (Proc.devRef (τ := τ) .tc main_v12).ty.Contents (Elt F)) :
    (StableHlo.TRef.of main_v12 h1 h2 h3 : StableHlo.TRef sig ⟨S100000, .i1⟩).ofBuf v = v := rfl
theorem ofBuf_v13 (h1 h2 h3) (v : (Proc.devRef (τ := τ) .tc main_v13).ty.Contents (Elt F)) :
    (StableHlo.TRef.of main_v13 h1 h2 h3 : StableHlo.TRef sig ⟨S100000, .f32⟩).ofBuf v = v := rfl
theorem toBuf_v14 (h1 h2 h3) (v : (⟨S100000, .f32⟩ : BufTy).Contents (Elt F)) :
    (StableHlo.TRef.of main_v14 h1 h2 h3 : StableHlo.TRef sig ⟨S100000, .f32⟩).toBuf v = v := rfl

/-! ## Before the first region: the edge lists with self loops, and the edge weights -/

section Stretch0
variable (W : Valuation τ sig (Elt F))

/-! The first stretch, from any entry contents: the two edge lists, the degree test, the inverse square root of the
    degree and the zero the selection fills with. -/

theorem h0_v5 : StableHlo.after hostOps0 W (Proc.devRef .tc main_v5) = KS.srcFull (W (Proc.devRef .tc main_arg1)) := by
  after_results
  rfl
theorem h0_v6 : StableHlo.after hostOps0 W (Proc.devRef .tc main_v6) = KS.dstFull (W (Proc.devRef .tc main_arg1)) := by
  after_results
  rfl
theorem h0_v12 : StableHlo.after hostOps0 W (Proc.devRef .tc main_v12)
    = cmpf .ogt (KS.deg (F := F) (W (Proc.devRef .tc main_arg1))) (broadcastInDim S100000 ![] bcast_S_S100000 (constant S_ .f32 0x00000000#32)) := by
  after_results
  rfl
theorem h0_v13 : StableHlo.after hostOps0 W (Proc.devRef .tc main_v13) = Host.rsqrt (KS.deg (F := F) (W (Proc.devRef .tc main_arg1))) := by
  after_results
  rfl
theorem h0_cst_2 : StableHlo.after hostOps0 W (Proc.devRef .tc main_cst_2) = (constant S_ .f32 0x00000000#32 : FVec F S_ .f32) := by
  after_results

/-! The selection (a called function), from any entry contents; it leaves the edge lists alone. -/

theorem h1_v14 : StableHlo.after hostOps0_1 W (Proc.devRef .tc main_v14)
    = select (W (Proc.devRef .tc main_v12)) (W (Proc.devRef .tc main_v13))
        (broadcastInDim S100000 ![] bcast_S_S100000 (id (W (Proc.devRef .tc main_cst_2)))) := by
  after_results_simp
  repeat rw [ofBuf_toBuf]
  rw [ofBuf_v12, ofBuf_v13, ofBuf_cst_2, toBuf_v14]
theorem h1_v5 : StableHlo.after hostOps0_1 W (Proc.devRef .tc main_v5) = W (Proc.devRef .tc main_v5) := by
  after_results_simp
theorem h1_v6 : StableHlo.after hostOps0_1 W (Proc.devRef .tc main_v6) = W (Proc.devRef .tc main_v6) := by
  after_results_simp

/-! The third stretch, from any entry contents: the product of the two gathered factors, as one column. -/

theorem h2_v30 : StableHlo.after hostOps0_2 W (Proc.devRef .tc main_v30)
    = shapeCast S1700000x1
        (mulf (Host.gather gather_S100000_S1700000x1_S1700000_n_0_n_n_0_1_1 (W (Proc.devRef .tc main_v14)) (KS.col (KS.wrap (W (Proc.devRef .tc main_v5)))))
          (Host.gather gather_S100000_S1700000x1_S1700000_n_0_n_n_0_1_1 (W (Proc.devRef .tc main_v14)) (KS.col (KS.wrap (W (Proc.devRef .tc main_v6))))))
        shapeCasts_S1700000_S1700000x1 := by
  after_results_simp
  rfl

end Stretch0

theorem W1_v5 (c : Dev nD) : W1 m ρ c (Proc.devRef .tc main_v5) = KS.srcFull (m ((c : Thread nD τ).loc main_arg1)) :=
  h0_v5 (W0 m ρ c)
theorem W1_v6 (c : Dev nD) : W1 m ρ c (Proc.devRef .tc main_v6) = KS.dstFull (m ((c : Thread nD τ).loc main_arg1)) :=
  h0_v6 (W0 m ρ c)
theorem W3_v30 (c : Dev nD) : W3 m ρ c (Proc.devRef .tc main_v30) = KS.norm2d (F := F) (m ((c : Thread nD τ).loc main_arg1)) := by
  show StableHlo.after hostOps0_2 (StableHlo.after hostOps0_1 (StableHlo.after hostOps0 (W0 m ρ c))) (Proc.devRef .tc main_v30)
    = KS.norm2d (F := F) (W0 m ρ c (Proc.devRef .tc main_arg1))
  generalize W0 m ρ c = W
  rw [h2_v30, h1_v14, h1_v5, h1_v6, h0_v5, h0_v6, h0_v12, h0_v13, h0_cst_2]
  rfl

/-! ## The row gathers -/

theorem W5_v32 (c : Dev nD) : W5 m ρ c (Proc.devRef .tc main_v32) = KS.take48 (W4 m ρ c (Proc.devRef .tc main_v31)) (W4 m ρ c (Proc.devRef .tc main_v5)) := by
  show StableHlo.after hostOps1 (W4 m ρ c) (Proc.devRef .tc main_v32) = _
  generalize W4 m ρ c = W
  after_results_simp
  repeat rw [ofBuf_toBuf]
  rw [ofBuf_v5, ofBuf_v31, toBuf_v32]
  rfl
theorem W10_v40 (c : Dev nD) : W10 m ρ c (Proc.devRef .tc main_v40) = KS.take48 (W9 m ρ c (Proc.devRef .tc main_v39)) (W9 m ρ c (Proc.devRef .tc main_v5)) := by
  show StableHlo.after hostOps4 (W9 m ρ c) (Proc.devRef .tc main_v40) = _
  generalize W9 m ρ c = W
  after_results_simp
  repeat rw [ofBuf_toBuf]
  rw [ofBuf_v5, ofBuf_v39, toBuf_v40]
  rfl
theorem W15_v48 (c : Dev nD) : W15 m ρ c (Proc.devRef .tc main_v48) = KS.take16 (W14 m ρ c (Proc.devRef .tc main_v47)) (W14 m ρ c (Proc.devRef .tc main_v5)) := by
  show StableHlo.after hostOps7 (W14 m ρ c) (Proc.devRef .tc main_v48) = _
  generalize W14 m ρ c = W
  after_results_simp
  repeat rw [ofBuf_toBuf]
  rw [ofBuf_v5, ofBuf_v47, toBuf_v48]
  rfl

/-! ## The sums over destinations, and the bias rows -/

theorem W7_v36 (c : Dev nD) : W7 m ρ c (Proc.devRef .tc main_v36) = KS.agg48 (W6 m ρ c (Proc.devRef .tc main_v6)) (W6 m ρ c (Proc.devRef .tc main_v33)) := by
  show StableHlo.after hostOps2 (W6 m ρ c) (Proc.devRef .tc main_v36) = _
  generalize W6 m ρ c = W
  after_results
  rfl
theorem W7_v37 (c : Dev nD) : W7 m ρ c (Proc.devRef .tc main_v37) = KS.row48 (W6 m ρ c (Proc.devRef .tc main_arg3)) := by
  show StableHlo.after hostOps2 (W6 m ρ c) (Proc.devRef .tc main_v37) = _
  generalize W6 m ρ c = W
  after_results
  rfl
theorem W12_v44 (c : Dev nD) : W12 m ρ c (Proc.devRef .tc main_v44) = KS.agg48 (W11 m ρ c (Proc.devRef .tc main_v6)) (W11 m ρ c (Proc.devRef .tc main_v41)) := by
  show StableHlo.after hostOps5 (W11 m ρ c) (Proc.devRef .tc main_v44) = _
  generalize W11 m ρ c = W
  after_results
  rfl
theorem W12_v45 (c : Dev nD) : W12 m ρ c (Proc.devRef .tc main_v45) = KS.row48 (W11 m ρ c (Proc.devRef .tc main_arg5)) := by
  show StableHlo.after hostOps5 (W11 m ρ c) (Proc.devRef .tc main_v45) = _
  generalize W11 m ρ c = W
  after_results
  rfl
theorem W17_v52 (c : Dev nD) : W17 m ρ c (Proc.devRef .tc main_v52) = KS.agg16 (W16 m ρ c (Proc.devRef .tc main_v6)) (W16 m ρ c (Proc.devRef .tc main_v49)) := by
  show StableHlo.after hostOps8 (W16 m ρ c) (Proc.devRef .tc main_v52) = _
  generalize W16 m ρ c = W
  after_results
  rfl
theorem W17_v53 (c : Dev nD) : W17 m ρ c (Proc.devRef .tc main_v53) = KS.row16 (W16 m ρ c (Proc.devRef .tc main_arg7)) := by
  show StableHlo.after hostOps8 (W16 m ρ c) (Proc.devRef .tc main_v53) = _
  generalize W16 m ρ c = W
  after_results
  rfl

end Cert.KernelIdeal.HostVals

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.RegionMM.lean ====
/-
  The three matrix-product regions. Each grid point multiplies a block of 10000 rows by the whole right operand into a zero
  accumulator; the blocks tile the rows, so the output array is the whole product of the two arrays the region finds.
-/
import proofs.«404347_j14139032338889_1_alg».proof.Proof.Gen.KernelIdeal.Frame
import proofs.«404347_j14139032338889_1_alg».proof.Proof.KStages
import proofs.«404347_j14139032338889_1_alg».proof.Proof.LibMatmul
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.RegionMM

open Cert.KernelIdeal Cert.KernelIdeal.Gen Idealize.ShloMosaic Idealize.ShloMosaic.TcCoe Idealize.SL.Sem
open Idealize.ShloMosaic.ValueIdx

-- the buffer contents when the region is entered: any
variable (V : (c : Dev nD) → (b : Ref sig .tc) → Buf (Elt Ideal) ((c : Thread nD τ).loc b))

/-- Both offsets of a whole-block access are zero. -/
theorem offsets_zero : (![0, 0] : Fin 2 → Nat) = fun _ => 0 := funext fun a => by fin_cases a <;> rfl

/-! ## Region 0: rows of the 100000 × 32 array times the 32 × 48 array -/

/-- The printed dimension numbers are those of the plain product. -/
theorem dims0 : dot_S10000x32_S32x48_S10000x48_1_0_0_1_n_n = DotDims.plain 10000 32 48 := rfl

/-- The body's product of two blocks at (p, q): the sum over k of left (p, k) times right (k, q); the roundings to
    bf16 are the identity on ideal values. -/
theorem pay0_apply (x0 : Vec Ideal S10000x32 .f32) (x1 : Vec Ideal S32x48 .f32) (p : Fin 10000) (q : Fin 48) :
    k0_pay1 (F := Ideal) x0 x1 (ix2 p q) = ∑ k : Fin 32, x0 (ix2 p k) * x1 (ix2 k q) := by
  unfold k0_pay1
  rw [dims0]
  exact Cert.Matmul.matmul_plain_apply none _ _ p q

/-- A block product agrees with the whole product at the row the block's row sits at, when the left block is those
    rows of the left array and the right block is the whole right array. -/
theorem blk0 (x0 : Vec Ideal S10000x32 .f32) (x1 : Vec Ideal S32x48 .f32)
    (a0 : Vec Ideal S100000x32 .f32) (a1 : Vec Ideal S32x48 .f32)
    (p : Fin 10000) (q : Fin 48) (r : Fin 100000)
    (h0 : ∀ k : Fin 32, x0 (ix2 p k) = a0 (ix2 r k)) (h1 : x1 = a1) :
    k0_pay1 (F := Ideal) x0 x1 (ix2 p q)
      = Host.dotGeneral (F := Ideal) (φ₁ := .f32) (φ₂ := .f32) (DotDims.plain 100000 32 48) none a0 a1 (ix2 r q) := by
  subst h1
  rw [pay0_apply]
  refine Eq.trans ?_ (Cert.Matmul.dotGeneral_plain_apply none .single a0 x1 r q).symm
  exact Finset.sum_congr rfl fun k _ => by rw [h0]

/-- The printed index maps over the grid: the left and the output windows sit at block (t, 0), the right window at
    block (0, 0) at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 10000 t … 10000 t + 9999 of the left array. -/
theorem left0_apply (c : Dev nD) (t : Fin cfg0.N) (p : Fin 10000) (k : Fin 32) (r : Fin 100000)
    (hr : r.val = t.val * 10000 + p.val) :
    (iblk0 V c 0 t : Vec Ideal S10000x32 .f32) (ix2 p k) = (V c main_arg0 : Vec Ideal S100000x32 .f32) (ix2 r k) := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 10000 + 1 * p.val = r.val; omega
  | ⟨1, _⟩ => show win0_0.index t (1 : Fin 2) * 32 + 1 * k.val = k.val; omega

/-- The right window's block is the whole right array at every point. -/
theorem right0_eq (c : Dev nD) (t : Fin cfg0.N) :
    (iblk0 V c 1 t : Vec Ideal S32x48 .f32) = (V c main_arg2 : Vec Ideal S32x48 .f32) := by
  obtain ⟨-, -, e2, e3, -⟩ := idx_facts0 t
  funext y
  unfold iblk0
  rw [View.read_apply]
  show V c main_arg2 _ = V c main_arg2 _
  congr 1
  funext a; apply Fin.ext
  match a with
  | ⟨0, _⟩ => show win0_1.index t (0 : Fin 2) * 32 + 1 * (y 0).val = (y 0).val; omega
  | ⟨1, _⟩ => show win0_1.index t (1 : Fin 2) * 48 + 1 * (y 1).val = (y 1).val; omega

/-- What point t writes back is block t of the whole product. -/
theorem flushed0_eq (c : Dev nD) (t : Fin cfg0.N) :
    (dat0 (F := Ideal) V c).flushed 2 t = ((cfg0.win 2).blk t).view.read (Elt Ideal)
      (Host.dotGeneral (F := Ideal) (φ₁ := .f32) (φ₂ := .f32) (DotDims.plain 100000 32 48) none (V c main_arg0) (V c main_arg2)) := by
  show (cfg0.win 2).cut (grid0.coords t) ((dat0 V c).after 2 t) = _
  rw [after0_2]
  unfold out0_2
  rw [View.canon_unit_zero offsets_zero]
  simp only [View.ld_unit_zero (S := S10000x32) offsets_zero, View.ld_unit_zero (S := S32x48) offsets_zero]
  obtain ⟨-, -, -, -, e4, e5⟩ := idx_facts0 t
  have hN : t.val < 10 := by have := t.isLt; have hN : cfg0.N = 10 := N_0; omega
  funext j
  have hj0 : (j 0).val < 10000 := (j 0).isLt
  have hj1 : (j 1).val < 48 := (j 1).isLt
  show k0_pay1 (F := Ideal) (iblk0 V c 0 t) (iblk0 V c 1 t) j
    = Host.dotGeneral (F := Ideal) (φ₁ := .f32) (φ₂ := .f32) (DotDims.plain 100000 32 48) none (V c main_arg0) (V c main_arg2) (((cfg0.win 2).blk t).view.emb j)
  have hjj : (j : S10000x48.Idx) = ix2 (⟨(j 0).val, hj0⟩ : Fin 10000) (⟨(j 1).val, hj1⟩ : Fin 48) := by
    funext a
    match a with
    | ⟨0, _⟩ => rfl
    | ⟨1, _⟩ => rfl
  have hemb : ((cfg0.win 2).blk t).view.emb j
      = ix2 (⟨t.val * 10000 + (j 0).val, by omega⟩ : Fin 100000) (⟨(j 1).val, hj1⟩ : Fin 48) := by
    funext a; apply Fin.ext
    match a with
    | ⟨0, _⟩ => show win0_2.index t (0 : Fin 2) * 10000 + 1 * (j 0).val = t.val * 10000 + (j 0).val; omega
    | ⟨1, _⟩ => show win0_2.index t (1 : Fin 2) * 48 + 1 * (j 1).val = (j 1).val; omega
  refine (congrArg (k0_pay1 (F := Ideal) (iblk0 V c 0 t) (iblk0 V c 1 t)) hjj).trans ?_
  refine Eq.trans ?_ (congrArg (Host.dotGeneral (F := Ideal) (φ₁ := .f32) (φ₂ := .f32) (DotDims.plain 100000 32 48) none (V c main_arg0) (V c main_arg2)) hemb).symm
  exact blk0 _ _ _ _ _ _ _ (fun k => left0_apply V c t _ k _ rfl) (right0_eq V c t)

/-- An index of the output array is in point t's block iff each coordinate is in the block's range on its axis. -/
theorem mem_blk0 (t : Fin cfg0.N) (i : S100000x48.Idx) :
    i ∈ ((cfg0.win 2).blk t).view.set ↔ ∀ a : Fin 2, win0_2.index t a * S10000x48.size a ≤ (i a).val ∧ (i a).val < win0_2.index t a * S10000x48.size a + S10000x48.size a := by
  show i ∈ ((View.whole main_v31).slice (win0_2.rect t)).set ↔ _
  rw [View.set_slice_whole, Rect.mem_set_unit]
  exact Iff.rfl

/-- Row r of the output array is in the block of the point r / 10000. -/
theorem cover0 (i : S100000x48.Idx) :
    ∃ t : Fin cfg0.N, (cfg0.win 2).flush t = true ∧ i ∈ ((cfg0.win 2).blk t).view.set := by
  have hi0 : (i 0).val < 100000 := (i 0).isLt
  have hi1 : (i 1).val < 48 := (i 1).isLt
  have hN : cfg0.N = 10 := N_0
  have ht : (i 0).val / 10000 < cfg0.N := by rw [hN]; omega
  obtain ⟨-, -, -, -, e4, e5⟩ := idx_facts0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 48 ≤ (i 1).val ∧ (i 1).val < win0_2.index ⟨(i 0).val / 10000, ht⟩ (1 : Fin 2) * 48 + 48
    rw [e5]; omega

theorem region0 (c : Dev nD) :
    (dat0 (F := Ideal) V c).arrAt 2 cfg0.N = Host.dotGeneral (F := Ideal) (φ₁ := .f32) (φ₂ := .f32) (DotDims.plain 100000 32 48) none (V c main_arg0) (V c main_arg2) :=
  (dat0 (F := Ideal) V c).arrAt_eq_of_cover 2 _ (fun t _ => flushed0_eq V c t) cover0

/-! ## Region 3: rows of the 100000 × 48 array times the 48 × 48 array -/

/-- The printed dimension numbers are those of the plain product. -/
theorem dims3 : dot_S10000x48_S48x48_S10000x48_1_0_0_1_n_n = DotDims.plain 10000 48 48 := rfl

/-- The body's product of two blocks at (p, q): the sum over k of left (p, k) times right (k, q); the reshape to the
    same shape and the roundings to bf16 are the identity on ideal values. -/
theorem pay3_apply (x0 : Vec Ideal S10000x48 .f32) (x1 : Vec Ideal S48x48 .f32) (p : Fin 10000) (q : Fin 48) :
    k3_pay1 (F := Ideal) x0 x1 (ix2 p q) = ∑ k : Fin 48, x0 (ix2 p k) * x1 (ix2 k q) := by
  unfold k3_pay1
  rw [dims3, shapeCast_self]
  exact Cert.Matmul.matmul_plain_apply none _ _ p q

/-- A block product agrees with the whole product at the row the block's row sits at, when the left block is those
    rows of the left array and the right block is the whole right array. -/
theorem blk3 (x0 : Vec Ideal S10000x48 .f32) (x1 : Vec Ideal S48x48 .f32)
    (a0 : Vec Ideal S100000x48 .f32) (a1 : Vec Ideal S48x48 .f32)
    (p : Fin 10000) (q : Fin 48) (r : Fin 100000)
    (h0 : ∀ k : Fin 48, x0 (ix2 p k) = a0 (ix2 r k)) (h1 : x1 = a1) :
    k3_pay1 (F := Ideal) x0 x1 (ix2 p q)
      = Host.dotGeneral (F := Ideal) (φ₁ := .f32) (φ₂ := .f32) (DotDims.plain 100000 48 48) none a0 a1 (ix2 r q) := by
  subst h1
  rw [pay3_apply]
  refine Eq.trans ?_ (Cert.Matmul.dotGeneral_plain_apply none .single a0 x1 r q).symm
  exact Finset.sum_congr rfl fun k _ => by rw [h0]

/-- The printed index maps over the grid: the left and the output windows sit at block (t, 0), the right window at
    block (0, 0) at every point. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left window's block at point t is rows 10000 t … 10000 t + 9999 of the left array. -/
theorem left3_apply (c : Dev nD) (t : Fin cfg3.N) (p : Fin 10000) (k : Fin 48) (r : Fin 100000)
    (hr : r.val = t.val * 10000 + p.val) :
    (iblk3 V c 0 t : Vec Ideal S10000x48 .f32) (ix2 p k) = (V c main_v38 : Vec Ideal S100000x48 .f32) (ix2 r k) := by
  obtain ⟨e0, e1, -⟩ := idx_facts3 t
  unfold iblk3
  rw [View.read_apply]
  show V c main_v38 _ = V c main_v38 _
  congr 1
  funext a; apply Fin.ext
  match a with
  | ⟨0, _⟩ => show win3_0.index t (0 : Fin 2) * 10000 + 1 * p.val = r.val; omega
  | ⟨1, _⟩ => show win3_0.index t (1 : Fin 2) * 48 + 1 * k.val = k.val; omega

/-- The right window's block is the whole right array at every point. -/
theorem right3_eq (c : Dev nD) (t : Fin cfg3.N) :
    (iblk3 V c 1 t : Vec Ideal S48x48 .f32) = (V c main_arg4 : Vec Ideal S48x48 .f32) := by
  obtain ⟨-, -, e2, e3, -⟩ := idx_facts3 t
  funext y
  unfold iblk3
  rw [View.read_apply]
  show V c main_arg4 _ = V c main_arg4 _
  congr 1
  funext a; apply Fin.ext
  match a with
  | ⟨0, _⟩ => show win3_1.index t (0 : Fin 2) * 48 + 1 * (y 0).val = (y 0).val; omega
  | ⟨1, _⟩ => show win3_1.index t (1 : Fin 2) * 48 + 1 * (y 1).val = (y 1).val; omega

/-- What point t writes back is block t of the whole product. -/
theorem flushed3_eq (c : Dev nD) (t : Fin cfg3.N) :
    (dat3 (F := Ideal) V c).flushed 2 t = ((cfg3.win 2).blk t).view.read (Elt Ideal)
      (Host.dotGeneral (F := Ideal) (φ₁ := .f32) (φ₂ := .f32) (DotDims.plain 100000 48 48) none (V c main_v38) (V c main_arg4)) := by
  show (cfg3.win 2).cut (grid3.coords t) ((dat3 V c).after 2 t) = _
  rw [after3_2]
  unfold out3_2
  rw [View.canon_unit_zero offsets_zero]
  simp only [View.ld_unit_zero (S := S10000x48) offsets_zero, View.ld_unit_zero (S := S48x48) offsets_zero]
  obtain ⟨-, -, -, -, e4, e5⟩ := idx_facts3 t
  have hN : t.val < 10 := by have := t.isLt; have hN : cfg3.N = 10 := N_3; omega
  funext j
  have hj0 : (j 0).val < 10000 := (j 0).isLt
  have hj1 : (j 1).val < 48 := (j 1).isLt
  show k3_pay1 (F := Ideal) (iblk3 V c 0 t) (iblk3 V c 1 t) j
    = Host.dotGeneral (F := Ideal) (φ₁ := .f32) (φ₂ := .f32) (DotDims.plain 100000 48 48) none (V c main_v38) (V c main_arg4) (((cfg3.win 2).blk t).view.emb j)
  have hjj : (j : S10000x48.Idx) = ix2 (⟨(j 0).val, hj0⟩ : Fin 10000) (⟨(j 1).val, hj1⟩ : Fin 48) := by
    funext a
    match a with
    | ⟨0, _⟩ => rfl
    | ⟨1, _⟩ => rfl
  have hemb : ((cfg3.win 2).blk t).view.emb j
      = ix2 (⟨t.val * 10000 + (j 0).val, by omega⟩ : Fin 100000) (⟨(j 1).val, hj1⟩ : Fin 48) := by
    funext a; apply Fin.ext
    match a with
    | ⟨0, _⟩ => show win3_2.index t (0 : Fin 2) * 10000 + 1 * (j 0).val = t.val * 10000 + (j 0).val; omega
    | ⟨1, _⟩ => show win3_2.index t (1 : Fin 2) * 48 + 1 * (j 1).val = (j 1).val; omega
  refine (congrArg (k3_pay1 (F := Ideal) (iblk3 V c 0 t) (iblk3 V c 1 t)) hjj).trans ?_
  refine Eq.trans ?_ (congrArg (Host.dotGeneral (F := Ideal) (φ₁ := .f32) (φ₂ := .f32) (DotDims.plain 100000 48 48) none (V c main_v38) (V c main_arg4)) hemb).symm
  exact blk3 _ _ _ _ _ _ _ (fun k => left3_apply V c t _ k _ rfl) (right3_eq V c t)

/-- An index of the output array is in point t's block iff each coordinate is in the block's range on its axis. -/
theorem mem_blk3 (t : Fin cfg3.N) (i : S100000x48.Idx) :
    i ∈ ((cfg3.win 2).blk t).view.set ↔ ∀ a : Fin 2, win3_2.index t a * S10000x48.size a ≤ (i a).val ∧ (i a).val < win3_2.index t a * S10000x48.size a + S10000x48.size a := by
  show i ∈ ((View.whole main_v39).slice (win3_2.rect t)).set ↔ _
  rw [View.set_slice_whole, Rect.mem_set_unit]
  exact Iff.rfl

/-- Row r of the output array is in the block of the point r / 10000. -/
theorem cover3 (i : S100000x48.Idx) :
    ∃ t : Fin cfg3.N, (cfg3.win 2).flush t = true ∧ i ∈ ((cfg3.win 2).blk t).view.set := by
  have hi0 : (i 0).val < 100000 := (i 0).isLt
  have hi1 : (i 1).val < 48 := (i 1).isLt
  have hN : cfg3.N = 10 := N_3
  have ht : (i 0).val / 10000 < cfg3.N := by rw [hN]; omega
  obtain ⟨-, -, -, -, e4, e5⟩ := idx_facts3 ⟨(i 0).val / 10000, ht⟩
  refine ⟨⟨(i 0).val / 10000, ht⟩, flush3_2 _, ?_⟩
  rw [mem_blk3]
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, ht⟩ (1 : Fin 2) * 48 ≤ (i 1).val ∧ (i 1).val < win3_2.index ⟨(i 0).val / 10000, ht⟩ (1 : Fin 2) * 48 + 48
    rw [e5]; omega

theorem region3 (c : Dev nD) :
    (dat3 (F := Ideal) V c).arrAt 2 cfg3.N = Host.dotGeneral (F := Ideal) (φ₁ := .f32) (φ₂ := .f32) (DotDims.plain 100000 48 48) none (V c main_v38) (V c main_arg4) :=
  (dat3 (F := Ideal) V c).arrAt_eq_of_cover 2 _ (fun t _ => flushed3_eq V c t) cover3

/-! ## Region 6: rows of the 100000 × 48 array times the 48 × 16 array -/

/-- The printed dimension numbers are those of the plain product. -/
theorem dims6 : dot_S10000x48_S48x16_S10000x16_1_0_0_1_n_n = DotDims.plain 10000 48 16 := rfl

/-- The body's product of two blocks at (p, q): the sum over k of left (p, k) times right (k, q); the reshape to the
    same shape and the roundings to bf16 are the identity on ideal values. -/
theorem pay6_apply (x0 : Vec Ideal S10000x48 .f32) (x1 : Vec Ideal S48x16 .f32) (p : Fin 10000) (q : Fin 16) :
    k6_pay1 (F := Ideal) x0 x1 (ix2 p q) = ∑ k : Fin 48, x0 (ix2 p k) * x1 (ix2 k q) := by
  unfold k6_pay1
  rw [dims6, shapeCast_self]
  exact Cert.Matmul.matmul_plain_apply none _ _ p q

/-- A block product agrees with the whole product at the row the block's row sits at, when the left block is those
    rows of the left array and the right block is the whole right array. -/
theorem blk6 (x0 : Vec Ideal S10000x48 .f32) (x1 : Vec Ideal S48x16 .f32)
    (a0 : Vec Ideal S100000x48 .f32) (a1 : Vec Ideal S48x16 .f32)
    (p : Fin 10000) (q : Fin 16) (r : Fin 100000)
    (h0 : ∀ k : Fin 48, x0 (ix2 p k) = a0 (ix2 r k)) (h1 : x1 = a1) :
    k6_pay1 (F := Ideal) x0 x1 (ix2 p q)
      = Host.dotGeneral (F := Ideal) (φ₁ := .f32) (φ₂ := .f32) (DotDims.plain 100000 48 16) none a0 a1 (ix2 r q) := by
  subst h1
  rw [pay6_apply]
  refine Eq.trans ?_ (Cert.Matmul.dotGeneral_plain_apply none .single a0 x1 r q).symm
  exact Finset.sum_congr rfl fun k _ => by rw [h0]

/-- The printed index maps over the grid: the left and the output windows sit at block (t, 0), the right window at
    block (0, 0) at every point. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The left window's block at point t is rows 10000 t … 10000 t + 9999 of the left array. -/
theorem left6_apply (c : Dev nD) (t : Fin cfg6.N) (p : Fin 10000) (k : Fin 48) (r : Fin 100000)
    (hr : r.val = t.val * 10000 + p.val) :
    (iblk6 V c 0 t : Vec Ideal S10000x48 .f32) (ix2 p k) = (V c main_v46 : Vec Ideal S100000x48 .f32) (ix2 r k) := by
  obtain ⟨e0, e1, -⟩ := idx_facts6 t
  unfold iblk6
  rw [View.read_apply]
  show V c main_v46 _ = V c main_v46 _
  congr 1
  funext a; apply Fin.ext
  match a with
  | ⟨0, _⟩ => show win6_0.index t (0 : Fin 2) * 10000 + 1 * p.val = r.val; omega
  | ⟨1, _⟩ => show win6_0.index t (1 : Fin 2) * 48 + 1 * k.val = k.val; omega

/-- The right window's block is the whole right array at every point. -/
theorem right6_eq (c : Dev nD) (t : Fin cfg6.N) :
    (iblk6 V c 1 t : Vec Ideal S48x16 .f32) = (V c main_arg6 : Vec Ideal S48x16 .f32) := by
  obtain ⟨-, -, e2, e3, -⟩ := idx_facts6 t
  funext y
  unfold iblk6
  rw [View.read_apply]
  show V c main_arg6 _ = V c main_arg6 _
  congr 1
  funext a; apply Fin.ext
  match a with
  | ⟨0, _⟩ => show win6_1.index t (0 : Fin 2) * 48 + 1 * (y 0).val = (y 0).val; omega
  | ⟨1, _⟩ => show win6_1.index t (1 : Fin 2) * 16 + 1 * (y 1).val = (y 1).val; omega

/-- What point t writes back is block t of the whole product. -/
theorem flushed6_eq (c : Dev nD) (t : Fin cfg6.N) :
    (dat6 (F := Ideal) V c).flushed 2 t = ((cfg6.win 2).blk t).view.read (Elt Ideal)
      (Host.dotGeneral (F := Ideal) (φ₁ := .f32) (φ₂ := .f32) (DotDims.plain 100000 48 16) none (V c main_v46) (V c main_arg6)) := by
  show (cfg6.win 2).cut (grid6.coords t) ((dat6 V c).after 2 t) = _
  rw [after6_2]
  unfold out6_2
  rw [View.canon_unit_zero offsets_zero]
  simp only [View.ld_unit_zero (S := S10000x48) offsets_zero, View.ld_unit_zero (S := S48x16) offsets_zero]
  obtain ⟨-, -, -, -, e4, e5⟩ := idx_facts6 t
  have hN : t.val < 10 := by have := t.isLt; have hN : cfg6.N = 10 := N_6; omega
  funext j
  have hj0 : (j 0).val < 10000 := (j 0).isLt
  have hj1 : (j 1).val < 16 := (j 1).isLt
  show k6_pay1 (F := Ideal) (iblk6 V c 0 t) (iblk6 V c 1 t) j
    = Host.dotGeneral (F := Ideal) (φ₁ := .f32) (φ₂ := .f32) (DotDims.plain 100000 48 16) none (V c main_v46) (V c main_arg6) (((cfg6.win 2).blk t).view.emb j)
  have hjj : (j : S10000x16.Idx) = ix2 (⟨(j 0).val, hj0⟩ : Fin 10000) (⟨(j 1).val, hj1⟩ : Fin 16) := by
    funext a
    match a with
    | ⟨0, _⟩ => rfl
    | ⟨1, _⟩ => rfl
  have hemb : ((cfg6.win 2).blk t).view.emb j
      = ix2 (⟨t.val * 10000 + (j 0).val, by omega⟩ : Fin 100000) (⟨(j 1).val, hj1⟩ : Fin 16) := by
    funext a; apply Fin.ext
    match a with
    | ⟨0, _⟩ => show win6_2.index t (0 : Fin 2) * 10000 + 1 * (j 0).val = t.val * 10000 + (j 0).val; omega
    | ⟨1, _⟩ => show win6_2.index t (1 : Fin 2) * 16 + 1 * (j 1).val = (j 1).val; omega
  refine (congrArg (k6_pay1 (F := Ideal) (iblk6 V c 0 t) (iblk6 V c 1 t)) hjj).trans ?_
  refine Eq.trans ?_ (congrArg (Host.dotGeneral (F := Ideal) (φ₁ := .f32) (φ₂ := .f32) (DotDims.plain 100000 48 16) none (V c main_v46) (V c main_arg6)) hemb).symm
  exact blk6 _ _ _ _ _ _ _ (fun k => left6_apply V c t _ k _ rfl) (right6_eq V c t)

/-- An index of the output array is in point t's block iff each coordinate is in the block's range on its axis. -/
theorem mem_blk6 (t : Fin cfg6.N) (i : S100000x16.Idx) :
    i ∈ ((cfg6.win 2).blk t).view.set ↔ ∀ a : Fin 2, win6_2.index t a * S10000x16.size a ≤ (i a).val ∧ (i a).val < win6_2.index t a * S10000x16.size a + S10000x16.size a := by
  show i ∈ ((View.whole main_v47).slice (win6_2.rect t)).set ↔ _
  rw [View.set_slice_whole, Rect.mem_set_unit]
  exact Iff.rfl

/-- Row r of the output array is in the block of the point r / 10000. -/
theorem cover6 (i : S100000x16.Idx) :
    ∃ t : Fin cfg6.N, (cfg6.win 2).flush t = true ∧ i ∈ ((cfg6.win 2).blk t).view.set := by
  have hi0 : (i 0).val < 100000 := (i 0).isLt
  have hi1 : (i 1).val < 16 := (i 1).isLt
  have hN : cfg6.N = 10 := N_6
  have ht : (i 0).val / 10000 < cfg6.N := by rw [hN]; omega
  obtain ⟨-, -, -, -, e4, e5⟩ := idx_facts6 ⟨(i 0).val / 10000, ht⟩
  refine ⟨⟨(i 0).val / 10000, ht⟩, flush6_2 _, ?_⟩
  rw [mem_blk6]
  intro a
  match a with
  | ⟨0, _⟩ =>
    show win6_2.index ⟨(i 0).val / 10000, ht⟩ (0 : Fin 2) * 10000 ≤ (i 0).val ∧ (i 0).val < win6_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win6_2.index ⟨(i 0).val / 10000, ht⟩ (1 : Fin 2) * 16 ≤ (i 1).val ∧ (i 1).val < win6_2.index ⟨(i 0).val / 10000, ht⟩ (1 : Fin 2) * 16 + 16
    rw [e5]; omega

theorem region6 (c : Dev nD) :
    (dat6 (F := Ideal) V c).arrAt 2 cfg6.N = Host.dotGeneral (F := Ideal) (φ₁ := .f32) (φ₂ := .f32) (DotDims.plain 100000 48 16) none (V c main_v46) (V c main_arg6) :=
  (dat6 (F := Ideal) V c).arrAt_eq_of_cover 2 _ (fun t _ => flushed6_eq V c t) cover6

end Cert.KernelIdeal.RegionMM

end
-- ==== Proof.RegionScale.lean ====
/-
  The three scaling regions. Each grid point multiplies a block of 10000 message rows by the block's column of edge weights;
  the blocks tile the rows, so the output array is the message array times the weight column spread along each row.
-/
import proofs.«404347_j14139032338889_1_alg».proof.Proof.Gen.KernelIdeal.Frame
import proofs.«404347_j14139032338889_1_alg».proof.Proof.KStages
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.RegionScale

open Cert.KernelIdeal Cert.KernelIdeal.Gen Idealize.ShloMosaic Idealize.ShloMosaic.TcCoe Idealize.SL.Sem
open Idealize.ShloMosaic.ValueIdx

-- the buffer contents when the region is entered: any
variable (V : (c : Dev nD) → (b : Ref sig .tc) → Buf (Elt Ideal) ((c : Thread nD τ).loc b))

/-- The zero offsets of an access to a whole buffer. -/
theorem zeroOff : (![0, 0] : Fin 2 → Nat) = fun _ => 0 := funext fun a => by fin_cases a <;> rfl

/-! ## One entry of the scaled array

  Entry (r, q) of the message array times the weight column spread along the rows is the message entry (r, q) times the
  weight of row r. -/

theorem scale48_apply (bc : KS.Bc) (u : FVec Ideal S1700000x48 .f32) (n : FVec Ideal S1700000x1 .f32) (r : Fin 1700000) (q : Fin 48) :
    KS.scale48 bc u n (ix2 r q) = u (ix2 r q) * n (ix2 r (0 : Fin 1)) := by
  unfold KS.scale48
  rw [mulf_apply]
  congr 1
  refine broadcastInDim_apply _ _ n (ix2 r q) (ix2 r (0 : Fin 1)) fun a => ?_
  match a with
  | ⟨0, _⟩ => rfl
  | ⟨1, _⟩ => rfl

theorem scale16_apply (bc : KS.Bc) (u : FVec Ideal S1700000x16 .f32) (n : FVec Ideal S1700000x1 .f32) (r : Fin 1700000) (q : Fin 16) :
    KS.scale16 bc u n (ix2 r q) = u (ix2 r q) * n (ix2 r (0 : Fin 1)) := by
  unfold KS.scale16
  rw [mulf_apply]
  congr 1
  refine broadcastInDim_apply _ _ n (ix2 r q) (ix2 r (0 : Fin 1)) fun a => ?_
  match a with
  | ⟨0, _⟩ => rfl
  | ⟨1, _⟩ => rfl

/-! ## Region 1: 48 columns, messages gathered for the first layer -/

/-- Entry (p, q) of the body's result on a block: the message block's entry (p, q) times the weight of the block's row p
    (the two casts are to the operand's own shape; the broadcast copies the one-column block along each row). -/
theorem blockProd1 (x0 : Vec Ideal S10000x48 .f32) (x1 : Vec Ideal S10000x1 .f32) (p : Fin 10000) (q : Fin 48) :
    k1_pay1 x0 x1 (ix2 p q) = x0 (ix2 p q) * x1 (ix2 p (0 : Fin 1)) := by
  unfold k1_pay1
  rw [mulf_apply, shapeCast_self, shapeCast_self]
  congr 1
  refine broadcastTo_apply x1 _ (ix2 p q) (ix2 p (0 : Fin 1)) fun a => ?_
  match a with
  | ⟨0, _⟩ => rfl
  | ⟨1, _⟩ => rfl

/-- The index maps over the grid: at point t every window's block is block (t, 0) of its array. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the scaled array: rows 10000·t … 10000·t + 9999, every column. Entry (p, q)
    of a block sits in its array at row 10000·t + p; the message block and the weight block at point t are the same rows
    of their arrays, so the block product at (p, q) is the array product at (10000·t + p, q). -/
theorem flushed1 (c : Dev nD) (bc : KS.Bc) (t : Fin cfg1.N) :
    (dat1 (F := Ideal) V c).flushed 2 t
      = ((cfg1.win 2).blk t).view.read (Elt Ideal) (KS.scale48 bc (V c main_v32) (V c main_v30)) := by
  show (cfg1.win 2).cut (grid1.coords t) ((dat1 V c).after 2 t) = _
  rw [after1_2]
  unfold out1_2
  rw [View.canon_unit_zero zeroOff]
  simp only [View.ld_unit_zero (S := S10000x48) zeroOff, View.ld_unit_zero (S := S10000x1) zeroOff]
  obtain ⟨e00, e01, e10, e11, e20, e21⟩ := blockIdx1 t
  have ht : t.val < 170 := lt_of_lt_of_eq t.isLt N_1
  refine funext fun (j : S10000x48.Idx) => ?_
  obtain ⟨p, q, rfl⟩ : ∃ (p : Fin 10000) (q : Fin 48), j = ix2 p q := ⟨j 0, j 1, eq_ix2 j⟩
  have hp : p.val < 10000 := p.isLt
  have hr : t.val * 10000 + p.val < 1700000 := by omega
  show k1_pay1 (iblk1 V c 0 t) (iblk1 V c 1 t) (ix2 p q)
      = KS.scale48 bc (V c main_v32) (V c main_v30) (((cfg1.win 2).blk t).view.emb (ix2 p q))
  have h2 : ((cfg1.win 2).blk t).view.emb (ix2 p q) = ix2 (⟨t.val * 10000 + p.val, hr⟩ : Fin 1700000) q := by
    funext a; apply Fin.ext
    match a with
    | ⟨0, _⟩ => show win1_2.index t (0 : Fin 2) * 10000 + 1 * p.val = t.val * 10000 + p.val; omega
    | ⟨1, _⟩ => show win1_2.index t (1 : Fin 2) * 48 + 1 * q.val = q.val; omega
  have h0 : ((cfg1.win 0).blk t).view.emb (ix2 p q) = ix2 (⟨t.val * 10000 + p.val, hr⟩ : Fin 1700000) q := by
    funext a; apply Fin.ext
    match a with
    | ⟨0, _⟩ => show win1_0.index t (0 : Fin 2) * 10000 + 1 * p.val = t.val * 10000 + p.val; omega
    | ⟨1, _⟩ => show win1_0.index t (1 : Fin 2) * 48 + 1 * q.val = q.val; omega
  have h1 : ((cfg1.win 1).blk t).view.emb (ix2 p (0 : Fin 1)) = ix2 (⟨t.val * 10000 + p.val, hr⟩ : Fin 1700000) (0 : Fin 1) := by
    funext a; apply Fin.ext
    match a with
    | ⟨0, _⟩ => show win1_1.index t (0 : Fin 2) * 10000 + 1 * p.val = t.val * 10000 + p.val; omega
    | ⟨1, _⟩ => show win1_1.index t (1 : Fin 2) * 1 + 1 * 0 = 0; omega
  have a0 : (iblk1 V c 0 t : Vec Ideal S10000x48 .f32) (ix2 p q)
      = (V c main_v32 : FVec Ideal S1700000x48 .f32) (ix2 (⟨t.val * 10000 + p.val, hr⟩ : Fin 1700000) q) := by
    show V c main_v32 (((cfg1.win 0).blk t).view.emb (ix2 p q)) = _
    rw [h0]
  have a1 : (iblk1 V c 1 t : Vec Ideal S10000x1 .f32) (ix2 p (0 : Fin 1))
      = (V c main_v30 : FVec Ideal S1700000x1 .f32) (ix2 (⟨t.val * 10000 + p.val, hr⟩ : Fin 1700000) (0 : Fin 1)) := by
    show V c main_v30 (((cfg1.win 1).blk t).view.emb (ix2 p (0 : Fin 1))) = _
    rw [h1]
  rw [h2]
  refine (blockProd1 (iblk1 V c 0 t) (iblk1 V c 1 t) p q).trans ?_
  refine ((scale48_apply bc (V c main_v32) (V c main_v30) ⟨t.val * 10000 + p.val, hr⟩ q).symm ▸ ?_)
  rw [a0, a1]

/-- An index of the array is in point t's block iff each coordinate is in the block's range on its axis. -/
theorem memBlk1 (t : Fin cfg1.N) (i : S1700000x48.Idx) :
    i ∈ ((cfg1.win 2).blk t).view.set ↔ ∀ a : Fin 2, win1_2.index t a * S10000x48.size a ≤ (i a).val ∧ (i a).val < win1_2.index t a * S10000x48.size a + S10000x48.size a := by
  show i ∈ ((View.whole main_v33).slice (win1_2.rect t)).set ↔ _
  rw [View.set_slice_whole, Rect.mem_set_unit]
  exact Iff.rfl

/-- Row r of the array lies in the block of point r / 10000, which is written back. -/
theorem cover1 (i : S1700000x48.Idx) :
    ∃ t : Fin cfg1.N, (cfg1.win 2).flush t = true ∧ i ∈ ((cfg1.win 2).blk t).view.set := by
  have hi0 : (i 0).val < 1700000 := (i 0).isLt
  have hi1 : (i 1).val < 48 := (i 1).isLt
  have hlt : (i 0).val / 10000 < cfg1.N := by rw [show cfg1.N = 170 from N_1]; omega
  obtain ⟨-, -, -, -, e20, e21⟩ := blockIdx1 ⟨(i 0).val / 10000, hlt⟩
  have e20' : win1_2.index ⟨(i 0).val / 10000, hlt⟩ (0 : Fin 2) = (i 0).val / 10000 := e20
  refine ⟨⟨(i 0).val / 10000, hlt⟩, flush1_2 _, ?_⟩
  rw [memBlk1]
  intro a
  match a with
  | ⟨0, _⟩ =>
    show win1_2.index ⟨(i 0).val / 10000, hlt⟩ (0 : Fin 2) * 10000 ≤ (i 0).val
      ∧ (i 0).val < win1_2.index ⟨(i 0).val / 10000, hlt⟩ (0 : Fin 2) * 10000 + 10000
    omega
  | ⟨1, _⟩ =>
    show win1_2.index ⟨(i 0).val / 10000, hlt⟩ (1 : Fin 2) * 48 ≤ (i 1).val
      ∧ (i 1).val < win1_2.index ⟨(i 0).val / 10000, hlt⟩ (1 : Fin 2) * 48 + 48
    omega

/-- The blocks tile the rows, so the output array is the scaled array. -/
theorem region1 (c : Dev nD) (bc : KS.Bc) :
    (dat1 (F := Ideal) V c).arrAt 2 cfg1.N = KS.scale48 bc (V c main_v32) (V c main_v30) :=
  (dat1 (F := Ideal) V c).arrAt_eq_of_cover 2 (KS.scale48 bc (V c main_v32) (V c main_v30)) (fun t _ => flushed1 V c bc t) cover1

/-! ## Region 4: 48 columns, messages gathered for the second layer -/

/-- Entry (p, q) of the body's result on a block: the message block's entry (p, q) times the weight of the block's row p. -/
theorem blockProd4 (x0 : Vec Ideal S10000x48 .f32) (x1 : Vec Ideal S10000x1 .f32) (p : Fin 10000) (q : Fin 48) :
    k4_pay1 x0 x1 (ix2 p q) = x0 (ix2 p q) * x1 (ix2 p (0 : Fin 1)) := by
  unfold k4_pay1
  rw [mulf_apply, shapeCast_self, shapeCast_self]
  congr 1
  refine broadcastTo_apply x1 _ (ix2 p q) (ix2 p (0 : Fin 1)) fun a => ?_
  match a with
  | ⟨0, _⟩ => rfl
  | ⟨1, _⟩ => rfl

/-- The index maps over the grid: at point t every window's block is block (t, 0) of its array. -/
theorem blockIdx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the scaled array: rows 10000·t … 10000·t + 9999, every column. -/
theorem flushed4 (c : Dev nD) (bc : KS.Bc) (t : Fin cfg4.N) :
    (dat4 (F := Ideal) V c).flushed 2 t
      = ((cfg4.win 2).blk t).view.read (Elt Ideal) (KS.scale48 bc (V c main_v40) (V c main_v30)) := by
  show (cfg4.win 2).cut (grid4.coords t) ((dat4 V c).after 2 t) = _
  rw [after4_2]
  unfold out4_2
  rw [View.canon_unit_zero zeroOff]
  simp only [View.ld_unit_zero (S := S10000x48) zeroOff, View.ld_unit_zero (S := S10000x1) zeroOff]
  obtain ⟨e00, e01, e10, e11, e20, e21⟩ := blockIdx4 t
  have ht : t.val < 170 := lt_of_lt_of_eq t.isLt N_4
  refine funext fun (j : S10000x48.Idx) => ?_
  obtain ⟨p, q, rfl⟩ : ∃ (p : Fin 10000) (q : Fin 48), j = ix2 p q := ⟨j 0, j 1, eq_ix2 j⟩
  have hp : p.val < 10000 := p.isLt
  have hr : t.val * 10000 + p.val < 1700000 := by omega
  show k4_pay1 (iblk4 V c 0 t) (iblk4 V c 1 t) (ix2 p q)
      = KS.scale48 bc (V c main_v40) (V c main_v30) (((cfg4.win 2).blk t).view.emb (ix2 p q))
  have h2 : ((cfg4.win 2).blk t).view.emb (ix2 p q) = ix2 (⟨t.val * 10000 + p.val, hr⟩ : Fin 1700000) q := by
    funext a; apply Fin.ext
    match a with
    | ⟨0, _⟩ => show win4_2.index t (0 : Fin 2) * 10000 + 1 * p.val = t.val * 10000 + p.val; omega
    | ⟨1, _⟩ => show win4_2.index t (1 : Fin 2) * 48 + 1 * q.val = q.val; omega
  have h0 : ((cfg4.win 0).blk t).view.emb (ix2 p q) = ix2 (⟨t.val * 10000 + p.val, hr⟩ : Fin 1700000) q := by
    funext a; apply Fin.ext
    match a with
    | ⟨0, _⟩ => show win4_0.index t (0 : Fin 2) * 10000 + 1 * p.val = t.val * 10000 + p.val; omega
    | ⟨1, _⟩ => show win4_0.index t (1 : Fin 2) * 48 + 1 * q.val = q.val; omega
  have h1 : ((cfg4.win 1).blk t).view.emb (ix2 p (0 : Fin 1)) = ix2 (⟨t.val * 10000 + p.val, hr⟩ : Fin 1700000) (0 : Fin 1) := by
    funext a; apply Fin.ext
    match a with
    | ⟨0, _⟩ => show win4_1.index t (0 : Fin 2) * 10000 + 1 * p.val = t.val * 10000 + p.val; omega
    | ⟨1, _⟩ => show win4_1.index t (1 : Fin 2) * 1 + 1 * 0 = 0; omega
  have a0 : (iblk4 V c 0 t : Vec Ideal S10000x48 .f32) (ix2 p q)
      = (V c main_v40 : FVec Ideal S1700000x48 .f32) (ix2 (⟨t.val * 10000 + p.val, hr⟩ : Fin 1700000) q) := by
    show V c main_v40 (((cfg4.win 0).blk t).view.emb (ix2 p q)) = _
    rw [h0]
  have a1 : (iblk4 V c 1 t : Vec Ideal S10000x1 .f32) (ix2 p (0 : Fin 1))
      = (V c main_v30 : FVec Ideal S1700000x1 .f32) (ix2 (⟨t.val * 10000 + p.val, hr⟩ : Fin 1700000) (0 : Fin 1)) := by
    show V c main_v30 (((cfg4.win 1).blk t).view.emb (ix2 p (0 : Fin 1))) = _
    rw [h1]
  rw [h2]
  refine (blockProd4 (iblk4 V c 0 t) (iblk4 V c 1 t) p q).trans ?_
  refine ((scale48_apply bc (V c main_v40) (V c main_v30) ⟨t.val * 10000 + p.val, hr⟩ q).symm ▸ ?_)
  rw [a0, a1]

/-- An index of the array is in point t's block iff each coordinate is in the block's range on its axis. -/
theorem memBlk4 (t : Fin cfg4.N) (i : S1700000x48.Idx) :
    i ∈ ((cfg4.win 2).blk t).view.set ↔ ∀ a : Fin 2, win4_2.index t a * S10000x48.size a ≤ (i a).val ∧ (i a).val < win4_2.index t a * S10000x48.size a + S10000x48.size a := by
  show i ∈ ((View.whole main_v41).slice (win4_2.rect t)).set ↔ _
  rw [View.set_slice_whole, Rect.mem_set_unit]
  exact Iff.rfl

/-- Row r of the array lies in the block of point r / 10000, which is written back. -/
theorem cover4 (i : S1700000x48.Idx) :
    ∃ t : Fin cfg4.N, (cfg4.win 2).flush t = true ∧ i ∈ ((cfg4.win 2).blk t).view.set := by
  have hi0 : (i 0).val < 1700000 := (i 0).isLt
  have hi1 : (i 1).val < 48 := (i 1).isLt
  have hlt : (i 0).val / 10000 < cfg4.N := by rw [show cfg4.N = 170 from N_4]; omega
  obtain ⟨-, -, -, -, e20, e21⟩ := blockIdx4 ⟨(i 0).val / 10000, hlt⟩
  have e20' : win4_2.index ⟨(i 0).val / 10000, hlt⟩ (0 : Fin 2) = (i 0).val / 10000 := e20
  refine ⟨⟨(i 0).val / 10000, hlt⟩, flush4_2 _, ?_⟩
  rw [memBlk4]
  intro a
  match a with
  | ⟨0, _⟩ =>
    show win4_2.index ⟨(i 0).val / 10000, hlt⟩ (0 : Fin 2) * 10000 ≤ (i 0).val
      ∧ (i 0).val < win4_2.index ⟨(i 0).val / 10000, hlt⟩ (0 : Fin 2) * 10000 + 10000
    omega
  | ⟨1, _⟩ =>
    show win4_2.index ⟨(i 0).val / 10000, hlt⟩ (1 : Fin 2) * 48 ≤ (i 1).val
      ∧ (i 1).val < win4_2.index ⟨(i 0).val / 10000, hlt⟩ (1 : Fin 2) * 48 + 48
    omega

/-- The blocks tile the rows, so the output array is the scaled array. -/
theorem region4 (c : Dev nD) (bc : KS.Bc) :
    (dat4 (F := Ideal) V c).arrAt 2 cfg4.N = KS.scale48 bc (V c main_v40) (V c main_v30) :=
  (dat4 (F := Ideal) V c).arrAt_eq_of_cover 2 (KS.scale48 bc (V c main_v40) (V c main_v30)) (fun t _ => flushed4 V c bc t) cover4

/-! ## Region 7: 16 columns, messages gathered for the output layer -/

/-- Entry (p, q) of the body's result on a block: the message block's entry (p, q) times the weight of the block's row p. -/
theorem blockProd7 (x0 : Vec Ideal S10000x16 .f32) (x1 : Vec Ideal S10000x1 .f32) (p : Fin 10000) (q : Fin 16) :
    k7_pay1 x0 x1 (ix2 p q) = x0 (ix2 p q) * x1 (ix2 p (0 : Fin 1)) := by
  unfold k7_pay1
  rw [mulf_apply, shapeCast_self, shapeCast_self]
  congr 1
  refine broadcastTo_apply x1 _ (ix2 p q) (ix2 p (0 : Fin 1)) fun a => ?_
  match a with
  | ⟨0, _⟩ => rfl
  | ⟨1, _⟩ => rfl

/-- The index maps over the grid: at point t every window's block is block (t, 0) of its array. -/
theorem blockIdx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- What point t writes back is block t of the scaled array: rows 10000·t … 10000·t + 9999, every column. -/
theorem flushed7 (c : Dev nD) (bc : KS.Bc) (t : Fin cfg7.N) :
    (dat7 (F := Ideal) V c).flushed 2 t
      = ((cfg7.win 2).blk t).view.read (Elt Ideal) (KS.scale16 bc (V c main_v48) (V c main_v30)) := by
  show (cfg7.win 2).cut (grid7.coords t) ((dat7 V c).after 2 t) = _
  rw [after7_2]
  unfold out7_2
  rw [View.canon_unit_zero zeroOff]
  simp only [View.ld_unit_zero (S := S10000x16) zeroOff, View.ld_unit_zero (S := S10000x1) zeroOff]
  obtain ⟨e00, e01, e10, e11, e20, e21⟩ := blockIdx7 t
  have ht : t.val < 170 := lt_of_lt_of_eq t.isLt N_7
  refine funext fun (j : S10000x16.Idx) => ?_
  obtain ⟨p, q, rfl⟩ : ∃ (p : Fin 10000) (q : Fin 16), j = ix2 p q := ⟨j 0, j 1, eq_ix2 j⟩
  have hp : p.val < 10000 := p.isLt
  have hr : t.val * 10000 + p.val < 1700000 := by omega
  show k7_pay1 (iblk7 V c 0 t) (iblk7 V c 1 t) (ix2 p q)
      = KS.scale16 bc (V c main_v48) (V c main_v30) (((cfg7.win 2).blk t).view.emb (ix2 p q))
  have h2 : ((cfg7.win 2).blk t).view.emb (ix2 p q) = ix2 (⟨t.val * 10000 + p.val, hr⟩ : Fin 1700000) q := by
    funext a; apply Fin.ext
    match a with
    | ⟨0, _⟩ => show win7_2.index t (0 : Fin 2) * 10000 + 1 * p.val = t.val * 10000 + p.val; omega
    | ⟨1, _⟩ => show win7_2.index t (1 : Fin 2) * 16 + 1 * q.val = q.val; omega
  have h0 : ((cfg7.win 0).blk t).view.emb (ix2 p q) = ix2 (⟨t.val * 10000 + p.val, hr⟩ : Fin 1700000) q := by
    funext a; apply Fin.ext
    match a with
    | ⟨0, _⟩ => show win7_0.index t (0 : Fin 2) * 10000 + 1 * p.val = t.val * 10000 + p.val; omega
    | ⟨1, _⟩ => show win7_0.index t (1 : Fin 2) * 16 + 1 * q.val = q.val; omega
  have h1 : ((cfg7.win 1).blk t).view.emb (ix2 p (0 : Fin 1)) = ix2 (⟨t.val * 10000 + p.val, hr⟩ : Fin 1700000) (0 : Fin 1) := by
    funext a; apply Fin.ext
    match a with
    | ⟨0, _⟩ => show win7_1.index t (0 : Fin 2) * 10000 + 1 * p.val = t.val * 10000 + p.val; omega
    | ⟨1, _⟩ => show win7_1.index t (1 : Fin 2) * 1 + 1 * 0 = 0; omega
  have a0 : (iblk7 V c 0 t : Vec Ideal S10000x16 .f32) (ix2 p q)
      = (V c main_v48 : FVec Ideal S1700000x16 .f32) (ix2 (⟨t.val * 10000 + p.val, hr⟩ : Fin 1700000) q) := by
    show V c main_v48 (((cfg7.win 0).blk t).view.emb (ix2 p q)) = _
    rw [h0]
  have a1 : (iblk7 V c 1 t : Vec Ideal S10000x1 .f32) (ix2 p (0 : Fin 1))
      = (V c main_v30 : FVec Ideal S1700000x1 .f32) (ix2 (⟨t.val * 10000 + p.val, hr⟩ : Fin 1700000) (0 : Fin 1)) := by
    show V c main_v30 (((cfg7.win 1).blk t).view.emb (ix2 p (0 : Fin 1))) = _
    rw [h1]
  rw [h2]
  refine (blockProd7 (iblk7 V c 0 t) (iblk7 V c 1 t) p q).trans ?_
  refine ((scale16_apply bc (V c main_v48) (V c main_v30) ⟨t.val * 10000 + p.val, hr⟩ q).symm ▸ ?_)
  rw [a0, a1]

/-- An index of the array is in point t's block iff each coordinate is in the block's range on its axis. -/
theorem memBlk7 (t : Fin cfg7.N) (i : S1700000x16.Idx) :
    i ∈ ((cfg7.win 2).blk t).view.set ↔ ∀ a : Fin 2, win7_2.index t a * S10000x16.size a ≤ (i a).val ∧ (i a).val < win7_2.index t a * S10000x16.size a + S10000x16.size a := by
  show i ∈ ((View.whole main_v49).slice (win7_2.rect t)).set ↔ _
  rw [View.set_slice_whole, Rect.mem_set_unit]
  exact Iff.rfl

/-- Row r of the array lies in the block of point r / 10000, which is written back. -/
theorem cover7 (i : S1700000x16.Idx) :
    ∃ t : Fin cfg7.N, (cfg7.win 2).flush t = true ∧ i ∈ ((cfg7.win 2).blk t).view.set := by
  have hi0 : (i 0).val < 1700000 := (i 0).isLt
  have hi1 : (i 1).val < 16 := (i 1).isLt
  have hlt : (i 0).val / 10000 < cfg7.N := by rw [show cfg7.N = 170 from N_7]; omega
  obtain ⟨-, -, -, -, e20, e21⟩ := blockIdx7 ⟨(i 0).val / 10000, hlt⟩
  have e20' : win7_2.index ⟨(i 0).val / 10000, hlt⟩ (0 : Fin 2) = (i 0).val / 10000 := e20
  refine ⟨⟨(i 0).val / 10000, hlt⟩, flush7_2 _, ?_⟩
  rw [memBlk7]
  intro a
  match a with
  | ⟨0, _⟩ =>
    show win7_2.index ⟨(i 0).val / 10000, hlt⟩ (0 : Fin 2) * 10000 ≤ (i 0).val
      ∧ (i 0).val < win7_2.index ⟨(i 0).val / 10000, hlt⟩ (0 : Fin 2) * 10000 + 10000
    omega
  | ⟨1, _⟩ =>
    show win7_2.index ⟨(i 0).val / 10000, hlt⟩ (1 : Fin 2) * 16 ≤ (i 1).val
      ∧ (i 1).val < win7_2.index ⟨(i 0).val / 10000, hlt⟩ (1 : Fin 2) * 16 + 16
    omega

/-- The blocks tile the rows, so the output array is the scaled array. -/
theorem region7 (c : Dev nD) (bc : KS.Bc) :
    (dat7 (F := Ideal) V c).arrAt 2 cfg7.N = KS.scale16 bc (V c main_v48) (V c main_v30) :=
  (dat7 (F := Ideal) V c).arrAt_eq_of_cover 2 (KS.scale16 bc (V c main_v48) (V c main_v30)) (fun t _ => flushed7 V c bc t) cover7

end Cert.KernelIdeal.RegionScale

end
-- ==== Proof.RegionBias.lean ====
/-
  The three bias regions. Each grid point adds the bias row to a block of 10000 aggregate rows and, in the two hidden
  layers, cuts the sum below at 0; the blocks tile the rows.
-/
import proofs.«404347_j14139032338889_1_alg».proof.Proof.Gen.KernelIdeal.Frame
import proofs.«404347_j14139032338889_1_alg».proof.Proof.KStages
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.RegionBias

open Cert.KernelIdeal Cert.KernelIdeal.Gen Idealize.ShloMosaic Idealize.ShloMosaic.TcCoe Idealize.SL.Sem
open Idealize.ShloMosaic.ValueIdx

/-- The zero offset of a whole-buffer access. -/
theorem hz : (![0, 0] : Fin 2 → Nat) = fun _ => 0 := funext fun a => by fin_cases a <;> rfl

/-! ## The two array functions at one element -/

/-- The aggregate plus the bias row, cut below at 0, at row p and column q: the aggregate there plus the row's entry
    of column q, or the zero word's value if that is larger. -/
theorem biasRelu48_apply (bc : KS.Bc) (a : FVec Ideal S100000x48 .f32) (b : FVec Ideal S1x48 .f32) (p : Fin 100000) (q : Fin 48) :
    KS.biasRelu48 bc a b (ix2 p q) = max (a (ix2 p q) + b (ix2 (0 : Fin 1) q)) (Ideal.ofBits .f32 0x00000000#32) := by
  have hb : broadcastInDim S100000x48 ![0, 1] bc.r48 b (ix2 p q) = b (ix2 (0 : Fin 1) q) :=
    broadcastInDim_apply _ bc.r48 b (ix2 p q) (ix2 (0 : Fin 1) q) fun ax => by
      match ax with
      | ⟨0, _⟩ => rfl
      | ⟨1, _⟩ => rfl
  show max (a (ix2 p q) + broadcastInDim S100000x48 ![0, 1] bc.r48 b (ix2 p q)) (Ideal.ofBits .f32 0x00000000#32) = _
  rw [hb]

/-- The aggregate plus the bias row at row p and column q: the aggregate there plus the row's entry of column q. -/
theorem bias16_apply (bc : KS.Bc) (a : FVec Ideal S100000x16 .f32) (b : FVec Ideal S1x16 .f32) (p : Fin 100000) (q : Fin 16) :
    KS.bias16 bc a b (ix2 p q) = a (ix2 p q) + b (ix2 (0 : Fin 1) q) := by
  have hb : broadcastInDim S100000x16 ![0, 1] bc.r16 b (ix2 p q) = b (ix2 (0 : Fin 1) q) :=
    broadcastInDim_apply _ bc.r16 b (ix2 p q) (ix2 (0 : Fin 1) q) fun ax => by
      match ax with
      | ⟨0, _⟩ => rfl
      | ⟨1, _⟩ => rfl
  show a (ix2 p q) + broadcastInDim S100000x16 ![0, 1] bc.r16 b (ix2 p q) = _
  rw [hb]

-- the buffer contents when the region is entered: any
variable (V : (c : Dev nD) → (b : Ref sig .tc) → Buf (Elt Ideal) ((c : Thread nD τ).loc b))

/-! ## Region 2: the first hidden layer's bias and cut -/

/-- One block's arithmetic at row p and column q of the block: the block's entry plus the row's entry of column q,
    or the zero word's value if that is larger. -/
theorem pay2_apply (x0 : Vec Ideal S10000x48 .f32) (x1 : Vec Ideal S1x48 .f32) (p : Fin 10000) (q : Fin 48) :
    k2_pay1 x0 x1 (ix2 p q) = max (x0 (ix2 p q) + x1 (ix2 (0 : Fin 1) q)) (Ideal.ofBits .f32 0x00000000#32) := by
  unfold k2_pay1
  simp only [shapeCast_self]
  show max (x0 (ix2 p q) + broadcastTo S10000x48 x1 broadcasts_S1x48_S10000x48 (ix2 p q)) (Ideal.ofBits .f32 0x00000000#32) = _
  rw [broadcastTo_1b_ab_apply]

/-- The block against the array: where the block's entry is the aggregate's, the row is the bias row and the columns
    agree, the block's arithmetic is the array's. -/
theorem blk2_apply (bc : KS.Bc) (x0 : Vec Ideal S10000x48 .f32) (x1 : Vec Ideal S1x48 .f32)
    (a : FVec Ideal S100000x48 .f32) (b : FVec Ideal S1x48 .f32) (j : S10000x48.Idx) (i : S100000x48.Idx)
    (h0 : x0 j = a i) (h1 : x1 = b) (hi : (i 1).val = (j 1).val) :
    k2_pay1 x0 x1 j = KS.biasRelu48 bc a b i := by
  obtain ⟨p, q, rfl⟩ : ∃ (p : Fin 10000) (q : Fin 48), j = ix2 p q := ⟨j 0, j 1, eq_ix2 j⟩
  obtain ⟨r, s, rfl⟩ : ∃ (r : Fin 100000) (s : Fin 48), i = ix2 r s := ⟨i 0, i 1, eq_ix2 i⟩
  have hs : s = q := Fin.ext hi
  subst hs
  rw [pay2_apply, biasRelu48_apply, h0, h1]

/-- The index maps over the grid: the aggregate's block and the output's block at point t are block t of the rows;
    the bias row's block is the whole row at every point. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole array's function of the aggregate and the bias row. -/
theorem flushed2_eq (c : Dev nD) (bc : KS.Bc) (t : Fin cfg2.N) :
    (dat2 (F := Ideal) V c).flushed 2 t
      = ((cfg2.win 2).blk t).view.read (Elt Ideal) (KS.biasRelu48 bc (V c main_v36) (V c main_v37)) := by
  show (cfg2.win 2).cut (grid2.coords t) ((dat2 V c).after 2 t) = _
  rw [after2_2]
  unfold out2_2
  rw [View.canon_unit_zero hz]
  simp only [View.ld_unit_zero (S := S10000x48) hz, View.ld_unit_zero (S := S1x48) hz]
  obtain ⟨e0, e1, e2, e3, e4, e5⟩ := idx2 t
  funext j
  show k2_pay1 (iblk2 V c 0 t) (iblk2 V c 1 t) j
    = KS.biasRelu48 bc (V c main_v36) (V c main_v37) (((cfg2.win 2).blk t).view.emb j)
  refine blk2_apply bc _ _ _ _ j _ ?_ ?_ ?_
  · show V c main_v36 (((cfg2.win 0).blk t).view.emb j) = V c main_v36 (((cfg2.win 2).blk t).view.emb j)
    refine congrArg _ (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 48 + 1 * (j 1).val = win2_2.index t (1 : Fin 2) * 48 + 1 * (j 1).val; omega
  · funext y
    show V c main_v37 (((cfg2.win 1).blk t).view.emb y) = V c main_v37 y
    refine congrArg _ (funext fun a => Fin.ext ?_)
    match a with
    | ⟨0, _⟩ => show win2_1.index t (0 : Fin 2) * 1 + 1 * (y 0).val = (y 0).val; omega
    | ⟨1, _⟩ => show win2_1.index t (1 : Fin 2) * 48 + 1 * (y 1).val = (y 1).val; omega
  · show win2_2.index t (1 : Fin 2) * 48 + 1 * (j 1).val = (j 1).val; omega

/-- An index of the array is in point t's block iff each coordinate is in the block's range on its axis. -/
theorem mem_blk2 (t : Fin cfg2.N) (i : S100000x48.Idx) :
    i ∈ ((cfg2.win 2).blk t).view.set ↔ ∀ a : Fin 2, win2_2.index t a * S10000x48.size a ≤ (i a).val
      ∧ (i a).val < win2_2.index t a * S10000x48.size a + S10000x48.size a := by
  show i ∈ ((View.whole main_v38).slice (win2_2.rect t)).set ↔ _
  rw [View.set_slice_whole, Rect.mem_set_unit]
  exact Iff.rfl

/-- Row r of the array lies in the block of point r / 10000. -/
theorem cover2 (i : S100000x48.Idx) :
    ∃ t : Fin cfg2.N, (cfg2.win 2).flush t = true ∧ i ∈ ((cfg2.win 2).blk t).view.set := by
  have hi0 : (i 0).val < 100000 := (i 0).isLt
  have hi1 : (i 1).val < 48 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e0, e1, e2, e3, e4, e5⟩ := idx2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 48 ≤ (i 1).val ∧ (i 1).val < win2_2.index t (1 : Fin 2) * 48 + 48; omega

theorem region2 (c : Dev nD) (bc : KS.Bc) :
    (dat2 (F := Ideal) V c).arrAt 2 cfg2.N = KS.biasRelu48 bc (V c main_v36) (V c main_v37) :=
  (dat2 (F := Ideal) V c).arrAt_eq_of_cover 2 (KS.biasRelu48 bc (V c main_v36) (V c main_v37))
    (fun t _ => flushed2_eq V c bc t) cover2

/-! ## Region 5: the second hidden layer's bias and cut -/

/-- One block's arithmetic at row p and column q of the block: the block's entry plus the row's entry of column q,
    or the zero word's value if that is larger. -/
theorem pay5_apply (x0 : Vec Ideal S10000x48 .f32) (x1 : Vec Ideal S1x48 .f32) (p : Fin 10000) (q : Fin 48) :
    k5_pay1 x0 x1 (ix2 p q) = max (x0 (ix2 p q) + x1 (ix2 (0 : Fin 1) q)) (Ideal.ofBits .f32 0x00000000#32) := by
  unfold k5_pay1
  simp only [shapeCast_self]
  show max (x0 (ix2 p q) + broadcastTo S10000x48 x1 broadcasts_S1x48_S10000x48 (ix2 p q)) (Ideal.ofBits .f32 0x00000000#32) = _
  rw [broadcastTo_1b_ab_apply]

/-- The block against the array: where the block's entry is the aggregate's, the row is the bias row and the columns
    agree, the block's arithmetic is the array's. -/
theorem blk5_apply (bc : KS.Bc) (x0 : Vec Ideal S10000x48 .f32) (x1 : Vec Ideal S1x48 .f32)
    (a : FVec Ideal S100000x48 .f32) (b : FVec Ideal S1x48 .f32) (j : S10000x48.Idx) (i : S100000x48.Idx)
    (h0 : x0 j = a i) (h1 : x1 = b) (hi : (i 1).val = (j 1).val) :
    k5_pay1 x0 x1 j = KS.biasRelu48 bc a b i := by
  obtain ⟨p, q, rfl⟩ : ∃ (p : Fin 10000) (q : Fin 48), j = ix2 p q := ⟨j 0, j 1, eq_ix2 j⟩
  obtain ⟨r, s, rfl⟩ : ∃ (r : Fin 100000) (s : Fin 48), i = ix2 r s := ⟨i 0, i 1, eq_ix2 i⟩
  have hs : s = q := Fin.ext hi
  subst hs
  rw [pay5_apply, biasRelu48_apply, h0, h1]

/-- The index maps over the grid: the aggregate's block and the output's block at point t are block t of the rows;
    the bias row's block is the whole row at every point. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the whole array's function of the aggregate and the bias row. -/
theorem flushed5_eq (c : Dev nD) (bc : KS.Bc) (t : Fin cfg5.N) :
    (dat5 (F := Ideal) V c).flushed 2 t
      = ((cfg5.win 2).blk t).view.read (Elt Ideal) (KS.biasRelu48 bc (V c main_v44) (V c main_v45)) := by
  show (cfg5.win 2).cut (grid5.coords t) ((dat5 V c).after 2 t) = _
  rw [after5_2]
  unfold out5_2
  rw [View.canon_unit_zero hz]
  simp only [View.ld_unit_zero (S := S10000x48) hz, View.ld_unit_zero (S := S1x48) hz]
  obtain ⟨e0, e1, e2, e3, e4, e5⟩ := idx5 t
  funext j
  show k5_pay1 (iblk5 V c 0 t) (iblk5 V c 1 t) j
    = KS.biasRelu48 bc (V c main_v44) (V c main_v45) (((cfg5.win 2).blk t).view.emb j)
  refine blk5_apply bc _ _ _ _ j _ ?_ ?_ ?_
  · show V c main_v44 (((cfg5.win 0).blk t).view.emb j) = V c main_v44 (((cfg5.win 2).blk t).view.emb j)
    refine congrArg _ (funext fun a => Fin.ext ?_)
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 48 + 1 * (j 1).val = win5_2.index t (1 : Fin 2) * 48 + 1 * (j 1).val; omega
  · funext y
    show V c main_v45 (((cfg5.win 1).blk t).view.emb y) = V c main_v45 y
    refine congrArg _ (funext fun a => Fin.ext ?_)
    match a with
    | ⟨0, _⟩ => show win5_1.index t (0 : Fin 2) * 1 + 1 * (y 0).val = (y 0).val; omega
    | ⟨1, _⟩ => show win5_1.index t (1 : Fin 2) * 48 + 1 * (y 1).val = (y 1).val; omega
  · show win5_2.index t (1 : Fin 2) * 48 + 1 * (j 1).val = (j 1).val; omega

/-- An index of the array is in point t's block iff each coordinate is in the block's range on its axis. -/
theorem mem_blk5 (t : Fin cfg5.N) (i : S100000x48.Idx) :
    i ∈ ((cfg5.win 2).blk t).view.set ↔ ∀ a : Fin 2, win5_2.index t a * S10000x48.size a ≤ (i a).val
      ∧ (i a).val < win5_2.index t a * S10000x48.size a + S10000x48.size a := by
  show i ∈ ((View.whole main_v46).slice (win5_2.rect t)).set ↔ _
  rw [View.set_slice_whole, Rect.mem_set_unit]
  exact Iff.rfl

/-- Row r of the array lies in the block of point r / 10000. -/
theorem cover5 (i : S100000x48.Idx) :
    ∃ t : Fin cfg5.N, (cfg5.win 2).flush t = true ∧ i ∈ ((cfg5.win 2).blk t).view.set := by
  have hi0 : (i 0).val < 100000 := (i 0).isLt
  have hi1 : (i 1).val < 48 := (i 1).isLt
  have hN : cfg5.N = 10 := N_5
  obtain ⟨t, ht⟩ : ∃ t : Fin cfg5.N, t.val = (i 0).val / 10000 := ⟨⟨(i 0).val / 10000, by rw [hN]; omega⟩, rfl⟩
  obtain ⟨e0, e1, e2, e3, e4, e5⟩ := idx5 t
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 48 ≤ (i 1).val ∧ (i 1).val < win5_2.index t (1 : Fin 2) * 48 + 48; omega

theorem region5 (c : Dev nD) (bc : KS.Bc) :
    (dat5 (F := Ideal) V c).arrAt 2 cfg5.N = KS.biasRelu48 bc (V c main_v44) (V c main_v45) :=
  (dat5 (F := Ideal) V c).arrAt_eq_of_cover 2 (KS.biasRelu48 bc (V c main_v44) (V c main_v45))
    (fun t _ => flushed5_eq V c bc t) cover5

/-! ## Region 8: the output layer's bias -/

/-- One block's arithmetic at row p and column q of the block: the block's entry plus the row's entry of column q. -/
theorem pay8_apply (x0 : Vec Ideal S10000x16 .f32) (x1 : Vec Ideal S1x16 .f32) (p : Fin 10000) (q : Fin 16) :
    k8_pay1 x0 x1 (ix2 p q) = x0 (ix2 p q) + x1 (ix2 (0 : Fin 1) q) := by
  unfold k8_pay1
  simp only [shapeCast_self]
  show x0 (ix2 p q) + broadcastTo S10000x16 x1 broadcasts_S1x16_S10000x16 (ix2 p q) = _
  rw [broadcastTo_1b_ab_apply]

/-- The block against the array: where the block's entry is the aggregate's, the row is the bias row and the columns
    agree, the block's arithmetic is the array's. -/
theorem blk8_apply (bc : KS.Bc) (x0 : Vec Ideal S10000x16 .f32) (x1 : Vec Ideal S1x16 .f32)
    (a : FVec Ideal S100000x16 .f32) (b : FVec Ideal S1x16 .f32) (j : S10000x16.Idx) (i : S100000x16.Idx)
    (h0 : x0 j = a i) (h1 : x1 = b) (hi : (i 1).val = (j 1).val) :
    k8_pay1 x0 x1 j = KS.bias16 bc a b i := by
  obtain ⟨p, q, rfl⟩ : ∃ (p : Fin 10000) (q : Fin 16), j = ix2 p q := ⟨j 0, j 1, eq_ix2 j⟩
  obtain ⟨r, s, rfl⟩ : ∃ (r : Fin 100000) (s : Fin 16), i = ix2 r s := ⟨i 0, i 1, eq_ix2 i⟩
  have hs : s = q := Fin.ext hi
  subst hs
  rw [pay8_apply, bias16_apply, h0, h1]

/-- The index maps over the grid: the aggregate's block and the output's block at point t are block t of the rows;
    the bias row's block is the whole row at every point. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point t writes back is block t of the whole array's function of the aggregate and the bias row. -/
theorem flushed8_eq (c : Dev nD) (bc : KS.Bc) (t : Fin cfg8.N) :
    (dat8 (F := Ideal) V c).flushed 2 t
      = ((cfg8.win 2).blk t).view.read (Elt Ideal) (KS.bias16 bc (V c main_v52) (V c main_v53)) := by
  show (cfg8.win 2).cut (grid8.coords t) ((dat8 V c).after 2 t) = _
  rw [after8_2]
  unfold out8_2
  rw [View.canon_unit_zero hz]
  simp only [View.ld_unit_zero (S := S10000x16) hz, View.ld_unit_zero (S := S1x16) hz]
  obtain ⟨e0, e1, e2, e3, e4, e5⟩ := idx8 t
  funext j
  show k8_pay1 (iblk8 V c 0 t) (iblk8 V c 1 t) j
    = KS.bias16 bc (V c main_v52) (V c main_v53) (((cfg8.win 2).blk t).view.emb j)
  refine blk8_apply bc _ _ _ _ j _ ?_ ?_ ?_
  · show V c main_v52 (((cfg8.win 0).blk t).view.emb j) = V c main_v52 (((cfg8.win 2).blk t).view.emb j)
    refine congrArg _ (funext fun a => Fin.ext ?_)
    match a with
    | ⟨0, _⟩ => show win8_0.index t (0 : Fin 2) * 10000 + 1 * (j 0).val = win8_2.index t (0 : Fin 2) * 10000 + 1 * (j 0).val; omega
    | ⟨1, _⟩ => show win8_0.index t (1 : Fin 2) * 16 + 1 * (j 1).val = win8_2.index t (1 : Fin 2) * 16 + 1 * (j 1).val; omega
  · funext y
    show V c main_v53 (((cfg8.win 1).blk t).view.emb y) = V c main_v53 y
    refine congrArg _ (funext fun a => Fin.ext ?_)
    match a with
    | ⟨0, _⟩ => show win8_1.index t (0 : Fin 2) * 1 + 1 * (y 0).val = (y 0).val; omega
    | ⟨1, _⟩ => show win8_1.index t (1 : Fin 2) * 16 + 1 * (y 1).val = (y 1).val; omega
  · show win8_2.index t (1 : Fin 2) * 16 + 1 * (j 1).val = (j 1).val; omega

/-- An index of the array is in point t's block iff each coordinate is in the block's range on its axis. -/
theorem mem_blk8 (t : Fin cfg8.N) (i : S100000x16.Idx) :
    i ∈ ((cfg8.win 2).blk t).view.set ↔ ∀ a : Fin 2, win8_2.index t a * S10000x16.size a ≤ (i a).val
      ∧ (i a).val < win8_2.index t a * S10000x16.size a + S10000x16.size a := by
  show i ∈ ((View.whole main_v54).slice (win8_2.rect t)).set ↔ _
  rw [View.set_slice_whole, Rect.mem_set_unit]
  exact Iff.rfl

/-- Row r of the array lies in the block of point r / 10000. -/
theorem cover8 (i : S100000x16.Idx) :
    ∃ t : Fin cfg8.N, (cfg8.win 2).flush t = true ∧ i ∈ ((cfg8.win 2).blk t).view.set := by
  have hi0 : (i 0).val < 100000 := (i 0).isLt
  have hi1 : (i 1).val < 16 := (i 1).isLt
  have hN : cfg8.N = 10 := N_8
  obtain ⟨t, ht⟩ : ∃ t : Fin cfg8.N, t.val = (i 0).val / 10000 := ⟨⟨(i 0).val / 10000, by rw [hN]; omega⟩, rfl⟩
  obtain ⟨e0, e1, e2, e3, e4, e5⟩ := idx8 t
  refine ⟨t, flush8_2 t, ?_⟩
  rw [mem_blk8]
  intro a
  match a with
  | ⟨0, _⟩ => show win8_2.index t (0 : Fin 2) * 10000 ≤ (i 0).val ∧ (i 0).val < win8_2.index t (0 : Fin 2) * 10000 + 10000; omega
  | ⟨1, _⟩ => show win8_2.index t (1 : Fin 2) * 16 ≤ (i 1).val ∧ (i 1).val < win8_2.index t (1 : Fin 2) * 16 + 16; omega

theorem region8 (c : Dev nD) (bc : KS.Bc) :
    (dat8 (F := Ideal) V c).arrAt 2 cfg8.N = KS.bias16 bc (V c main_v52) (V c main_v53) :=
  (dat8 (F := Ideal) V c).arrAt_eq_of_cover 2 (KS.bias16 bc (V c main_v52) (V c main_v53))
    (fun t _ => flushed8_eq V c bc t) cover8

end Cert.KernelIdeal.RegionBias

end
-- ==== Proof.KernelValue.lean ====
/-
  The kernel's result buffer at the last boundary, as the three layers of KStages applied to the argument arrays: the
  boundaries are walked in program order, each segment's output read as its named function of the contents before it.
-/
import proofs.«404347_j14139032338889_1_alg».proof.Proof.Gen.KernelIdeal.Frame
import proofs.«404347_j14139032338889_1_alg».proof.Proof.KStages
import proofs.«404347_j14139032338889_1_alg».proof.Proof.Carry
import proofs.«404347_j14139032338889_1_alg».proof.Proof.HostVals
import proofs.«404347_j14139032338889_1_alg».proof.Proof.RegionMM
import proofs.«404347_j14139032338889_1_alg».proof.Proof.RegionScale
import proofs.«404347_j14139032338889_1_alg».proof.Proof.RegionBias
set_option maxRecDepth 16384

noncomputable section

namespace Cert.KernelIdeal.KernelValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (bc : KS.Bc)

/-- The first layer's linear map of the node features. -/
def lin1 (c : Dev nD) : FVec Ideal S100000x48 .f32 :=
  Host.dotGeneral (F := Ideal) (φ₁ := .f32) (φ₂ := .f32) (DotDims.plain 100000 32 48) none (m ((c : Thread nD τ).loc main_arg0)) (m ((c : Thread nD τ).loc main_arg2))
/-- The first hidden layer. -/
def hid1 (c : Dev nD) : FVec Ideal S100000x48 .f32 := KS.conv48 bc (lin1 m c) (m ((c : Thread nD τ).loc main_arg1)) (m ((c : Thread nD τ).loc main_arg3))
def lin2 (c : Dev nD) : FVec Ideal S100000x48 .f32 :=
  Host.dotGeneral (F := Ideal) (φ₁ := .f32) (φ₂ := .f32) (DotDims.plain 100000 48 48) none (hid1 m bc c) (m ((c : Thread nD τ).loc main_arg4))
/-- The second hidden layer. -/
def hid2 (c : Dev nD) : FVec Ideal S100000x48 .f32 := KS.conv48 bc (lin2 m bc c) (m ((c : Thread nD τ).loc main_arg1)) (m ((c : Thread nD τ).loc main_arg5))
def lin3 (c : Dev nD) : FVec Ideal S100000x16 .f32 :=
  Host.dotGeneral (F := Ideal) (φ₁ := .f32) (φ₂ := .f32) (DotDims.plain 100000 48 16) none (hid2 m bc c) (m ((c : Thread nD τ).loc main_arg6))

theorem out_eq_layers (c : Dev nD) :
    KS.out bc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      = KS.conv16 bc (lin3 m bc c) (m ((c : Thread nD τ).loc main_arg1)) (m ((c : Thread nD τ).loc main_arg7)) := rfl

/-! ## The first layer -/

theorem W4_v31 (c : Dev nD) : W4 m ρ c (Proc.devRef .tc main_v31) = lin1 m c := by
  refine (W4_arr m ρ c 2).trans ((RegionMM.region0 (V3 m ρ) c).trans ?_)
  show Host.dotGeneral (F := Ideal) (φ₁ := .f32) (φ₂ := .f32) (DotDims.plain 100000 32 48) none (W3 m ρ c (Proc.devRef .tc main_arg0)) (W3 m ρ c (Proc.devRef .tc main_arg2)) = _
  rw [Carry.W3_arg0 m ρ c, Carry.W3_arg2 m ρ c]; rfl

theorem W5_v32 (c : Dev nD) : W5 m ρ c (Proc.devRef .tc main_v32) = KS.take48 (lin1 m c) (KS.srcFull (m ((c : Thread nD τ).loc main_arg1))) := by
  rw [HostVals.W5_v32 m ρ c, W4_v31 m ρ c, Carry.W4_v5 m ρ c, HostVals.W1_v5 m ρ c]

theorem W6_v33 (c : Dev nD) :
    W6 m ρ c (Proc.devRef .tc main_v33) = KS.scale48 bc (KS.take48 (lin1 m c) (KS.srcFull (m ((c : Thread nD τ).loc main_arg1)))) (KS.norm2d (m ((c : Thread nD τ).loc main_arg1))) := by
  refine (W6_arr m ρ c 2).trans ((RegionScale.region1 (V5 m ρ) c bc).trans ?_)
  show KS.scale48 bc (W5 m ρ c (Proc.devRef .tc main_v32)) (W5 m ρ c (Proc.devRef .tc main_v30)) = _
  rw [W5_v32 m ρ c, Carry.W5_v30 m ρ c, HostVals.W3_v30 m ρ c]

theorem W8_v38 (c : Dev nD) : W8 m ρ c (Proc.devRef .tc main_v38) = hid1 m bc c := by
  refine (W8_arr m ρ c 2).trans ((RegionBias.region2 (V7 m ρ) c bc).trans ?_)
  show KS.biasRelu48 bc (W7 m ρ c (Proc.devRef .tc main_v36)) (W7 m ρ c (Proc.devRef .tc main_v37)) = _
  rw [HostVals.W7_v36 m ρ c, HostVals.W7_v37 m ρ c, Carry.W6_v6 m ρ c, HostVals.W1_v6 m ρ c, W6_v33 m ρ bc c, Carry.W6_arg3 m ρ c]; rfl

/-! ## The second layer -/

theorem W9_v39 (c : Dev nD) : W9 m ρ c (Proc.devRef .tc main_v39) = lin2 m bc c := by
  refine (W9_arr m ρ c 2).trans ((RegionMM.region3 (V8 m ρ) c).trans ?_)
  show Host.dotGeneral (F := Ideal) (φ₁ := .f32) (φ₂ := .f32) (DotDims.plain 100000 48 48) none (W8 m ρ c (Proc.devRef .tc main_v38)) (W8 m ρ c (Proc.devRef .tc main_arg4)) = _
  rw [W8_v38 m ρ bc c, Carry.W8_arg4 m ρ c]; rfl

theorem W10_v40 (c : Dev nD) : W10 m ρ c (Proc.devRef .tc main_v40) = KS.take48 (lin2 m bc c) (KS.srcFull (m ((c : Thread nD τ).loc main_arg1))) := by
  rw [HostVals.W10_v40 m ρ c, W9_v39 m ρ bc c, Carry.W9_v5 m ρ c, HostVals.W1_v5 m ρ c]

theorem W11_v41 (c : Dev nD) :
    W11 m ρ c (Proc.devRef .tc main_v41) = KS.scale48 bc (KS.take48 (lin2 m bc c) (KS.srcFull (m ((c : Thread nD τ).loc main_arg1)))) (KS.norm2d (m ((c : Thread nD τ).loc main_arg1))) := by
  refine (W11_arr m ρ c 2).trans ((RegionScale.region4 (V10 m ρ) c bc).trans ?_)
  show KS.scale48 bc (W10 m ρ c (Proc.devRef .tc main_v40)) (W10 m ρ c (Proc.devRef .tc main_v30)) = _
  rw [W10_v40 m ρ bc c, Carry.W10_v30 m ρ c, HostVals.W3_v30 m ρ c]

theorem W13_v46 (c : Dev nD) : W13 m ρ c (Proc.devRef .tc main_v46) = hid2 m bc c := by
  refine (W13_arr m ρ c 2).trans ((RegionBias.region5 (V12 m ρ) c bc).trans ?_)
  show KS.biasRelu48 bc (W12 m ρ c (Proc.devRef .tc main_v44)) (W12 m ρ c (Proc.devRef .tc main_v45)) = _
  rw [HostVals.W12_v44 m ρ c, HostVals.W12_v45 m ρ c, Carry.W11_v6 m ρ c, HostVals.W1_v6 m ρ c, W11_v41 m ρ bc c, Carry.W11_arg5 m ρ c]; rfl

/-! ## The output layer -/

theorem W14_v47 (c : Dev nD) : W14 m ρ c (Proc.devRef .tc main_v47) = lin3 m bc c := by
  refine (W14_arr m ρ c 2).trans ((RegionMM.region6 (V13 m ρ) c).trans ?_)
  show Host.dotGeneral (F := Ideal) (φ₁ := .f32) (φ₂ := .f32) (DotDims.plain 100000 48 16) none (W13 m ρ c (Proc.devRef .tc main_v46)) (W13 m ρ c (Proc.devRef .tc main_arg6)) = _
  rw [W13_v46 m ρ bc c, Carry.W13_arg6 m ρ c]; rfl

theorem W15_v48 (c : Dev nD) : W15 m ρ c (Proc.devRef .tc main_v48) = KS.take16 (lin3 m bc c) (KS.srcFull (m ((c : Thread nD τ).loc main_arg1))) := by
  rw [HostVals.W15_v48 m ρ c, W14_v47 m ρ bc c, Carry.W14_v5 m ρ c, HostVals.W1_v5 m ρ c]

theorem W16_v49 (c : Dev nD) :
    W16 m ρ c (Proc.devRef .tc main_v49) = KS.scale16 bc (KS.take16 (lin3 m bc c) (KS.srcFull (m ((c : Thread nD τ).loc main_arg1)))) (KS.norm2d (m ((c : Thread nD τ).loc main_arg1))) := by
  refine (W16_arr m ρ c 2).trans ((RegionScale.region7 (V15 m ρ) c bc).trans ?_)
  show KS.scale16 bc (W15 m ρ c (Proc.devRef .tc main_v48)) (W15 m ρ c (Proc.devRef .tc main_v30)) = _
  rw [W15_v48 m ρ bc c, Carry.W15_v30 m ρ c, HostVals.W3_v30 m ρ c]

/-- THE RESULT BUFFER at the last boundary is the three layers of the argument arrays. -/
theorem W18_v54 (c : Dev nD) :
    W18 m ρ c (Proc.devRef .tc main_v54)
      = KS.out bc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [out_eq_layers m bc c]
  refine (W18_arr m ρ c 2).trans ((RegionBias.region8 (V17 m ρ) c bc).trans ?_)
  show KS.bias16 bc (W17 m ρ c (Proc.devRef .tc main_v52)) (W17 m ρ c (Proc.devRef .tc main_v53)) = _
  rw [HostVals.W17_v52 m ρ c, HostVals.W17_v53 m ρ c, Carry.W16_v6 m ρ c, HostVals.W1_v6 m ρ c, W16_v49 m ρ bc c, Carry.W16_arg7 m ρ c]; rfl

end Cert.KernelIdeal.KernelValue

end
-- ==== Proof.PreDecode.lean ====
/-
  What the precondition says about the edge sources: the two added conjuncts, read at one edge, put its source in 0 … N − 1.
-/
import proofs.«404347_j14139032338889_1_alg».proof.Defs
import proofs.«404347_j14139032338889_1_alg».proof.Proof.Gen.KernelIdeal
import proofs.«404347_j14139032338889_1_alg».proof.Proof.Gen.Pre_finite_inputs
import proofs.«404347_j14139032338889_1_alg».proof.Proof.KStages
import Idealize.ShloMosaic.Lib.StableHlo.Predicate
import Idealize.ShloMosaic.Lib.ReduceAll
import Idealize.ShloMosaic.Lib.ValueIdx

noncomputable section

namespace Cert.KernelIdeal.PreDecode

open Cert.KernelIdeal Idealize.ShloMosaic Idealize.SL.Sem
open Facts₀ Facts

/-- The result shape of a reduction over every axis has one index. -/
instance subsingleton_scalar_idx : Subsingleton Cert.Pre_finite_inputs.S_.Idx :=
  ⟨fun a b => funext fun d => d.elim0⟩

/-- A word that tests nonnegative (signed) has its top bit clear: it is below 2³¹ unsigned. -/
theorem sge_zero {w : BitVec 32} (h : IntOp.cmpi .sge w 0#32 = 1#1) : w.toNat < 2 ^ 31 := by
  have h1 : (0#32 : BitVec 32).toInt ≤ w.toInt := IntOp.cmpi_sge.1 h
  rw [show (0#32 : BitVec 32).toInt = 0 from by decide] at h1
  have h2 : 2 * w.toNat < 2 ^ 32 := BitVec.toInt_pos_iff.1 h1
  omega

/-- A word in [0, N) signed is below N unsigned. -/
theorem toNat_lt_of_signed_range {w : BitVec 32} (h0 : IntOp.cmpi .sge w 0#32 = 1#1)
    (h1 : IntOp.cmpi .slt w 100000#32 = 1#1) : w.toNat < 100000 := by
  have hw : w.toNat < 2 ^ 31 := sge_zero h0
  have hN : (100000#32 : BitVec 32).toNat < 2 ^ 31 := by decide
  have h2 : w.toNat < (100000#32 : BitVec 32).toNat := (StableHlo.Predicate.slt_iff_toNat hw hN).1 h1
  have hN' : (100000#32 : BitVec 32).toNat = 100000 := by decide
  omega

/-- The last two conjuncts of the precondition's tail, read at one position: whatever the earlier conjuncts are, if
    the tail is 1 then the first row of the edge table, as a flat vector, holds a word in [0, N) signed at every position,
    so below N unsigned. -/
theorem tail_decode (x : IVec Cert.Pre_finite_inputs.S2x1600000 32) (v : IVec Cert.Pre_finite_inputs.S_ 1)
    (h : Cert.Pre_finite_inputs.fn_part2 (F := Ideal) x v ValueIdx.ix0 = 1#1) (q : Cert.Pre_finite_inputs.S1600000.Idx) :
    ((shapeCast Cert.Pre_finite_inputs.S1600000
        (extractStridedSlice Cert.Pre_finite_inputs.S1x1600000 ![0, 0] x
          Cert.Pre_finite_inputs.Facts.slices_S2x1600000_S1x1600000_0_0)
        Cert.Pre_finite_inputs.Facts.shapeCasts_S1x1600000_S1600000) q).toNat < 100000 := by
  dsimp only [Cert.Pre_finite_inputs.fn_part2, andi] at h
  -- peel the two outer conjunctions: (earlier ∧ all (src ≥ 0)) ∧ all (src < N)
  obtain ⟨h12, hlt⟩ := IntOp.andi_eq_one.1 h
  obtain ⟨-, hge⟩ := IntOp.andi_eq_one.1 h12
  -- each `all` at position q
  have ege := Host.reduce_andi_all _ _ _ _ _ hge q
  have elt := Host.reduce_andi_all _ _ _ _ _ hlt q
  -- the compared constants read through their scalar broadcast
  simp only [cmpi, StableHlo.Predicate.bcast_scalar _ Cert.Pre_finite_inputs.Facts.h_S_, constantI] at ege elt
  exact toNat_lt_of_signed_range ege elt

/-- Under the precondition every edge's source, as an unsigned word, is below N. -/
theorem src_lt (m : (ℓ : Loc nD τ sig) → Buf (Elt Ideal) ℓ) (hpre : Cert.Pre_KernelIdeal m) (c : Dev nD) (q : S1600000.Idx) :
    ((shapeCast S1600000 (extractStridedSlice S1x1600000 ![0, 0] (m ((c.tc : Thread nD τ).loc main_arg1)) slices_S2x1600000_S1x1600000_0_0) shapeCasts_S1x1600000_S1600000) q).toNat < 100000 := by
  have h := congrFun (hpre c) ValueIdx.ix0
  dsimp only [Cert.Pre_finite_inputs.fn, Cert.Pre_finite_inputs.fn_part1] at h
  exact tail_decode _ _ h q

end Cert.KernelIdeal.PreDecode

end
-- ==== Proof.TakeGather.lean ====
/-
  When every index lies in 0 … N − 1, the filling row gather is the plain gather: the wrap leaves the index alone, the
  range test is true at every position, and the select keeps the gathered row. Also: the source list with the self loops
  appended stays in range when the edge sources are, and a reshape that only adds a unit axis is the broadcast that adds it.
-/
import proofs.«404347_j14139032338889_1_alg».proof.Proof.KStages
import Idealize.ShloMosaic.Lib.StableHlo.Predicate
import Idealize.ShloMosaic.Lib.ValueIdx
import Idealize.ShloMosaic.Lib.ValueLayout
import Idealize.ShloMosaic.Lib.Pipeline.Value

noncomputable section

namespace Cert.KernelIdeal.TakeGather

open Cert.KernelIdeal Idealize.ShloMosaic

variable {F : FTy → Type} [FloatOps F] [Facts]
open Facts₀ Facts

/-! ## Helper facts, at any shape -/

/-- A broadcast reads its operand at some index: whatever holds of every element of the operand holds of every
    element of the broadcast. -/
private theorem bcast_reads {α : Type} {s t : Shape} (dims : Fin s.rank → Fin t.rank) (hb : s.BroadcastsInDim t dims)
    (x : s.Idx → α) (j : t.Idx) : ∃ q : s.Idx, broadcastInDim t dims hb x j = x q := ⟨_, rfl⟩

/-- A left fold of `and` from 1 over words that are all 1 is 1. -/
private theorem foldl_andi_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_all_one f hf l

/-- A reduction by `and` from the constant 1 of a mask whose every bit is 1 is 1 at every position, along any axes. -/
private theorem reduce_andi_all_one {s t u : Shape} {axes : List (Fin s.rank)} (x : IVec s 1) (hx : ∀ i, x i = 1#1)
    (hr : s.ReducesTo axes t) (hu : 0 < u.numel) (j : t.Idx) :
    Host.reduce IntOp.andi x (constantI u 1 1#1) hr hu j = 1#1 := by
  rw [Host.reduce_eq_foldl]
  exact foldl_andi_all_one x hx _

/-- A vector of length n reshaped to an [n, 1] column is the vector broadcast along a new trailing unit axis: both
    read, at (p, 0), the vector at p. -/
private theorem shapeCast_col_eq_bcast {α : Type} {n : Nat} (v : (⟨1, ![n]⟩ : Shape).Idx → α)
    (hs : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ v hs = broadcastInDim ⟨2, ![n, 1]⟩ ![0] hb v := by
  funext j
  obtain ⟨p, q, rfl⟩ : ∃ (p : Fin n) (q : Fin 1), j = ValueIdx.ix2 p q := ⟨j 0, j 1, ValueIdx.eq_ix2 j⟩
  have hq : q.val = 0 := by omega
  have hp := p.isLt
  rw [shapeCast_apply v hs (ValueIdx.ix2 p q) (ValueIdx.ix1 p) (by
    rw [Shape.rowMajor_val_one, Shape.rowMajor_val_two]
    show p.val = p.val * 1 + q.val
    omega)]
  refine (broadcastInDim_apply ![0] hb v (ValueIdx.ix2 p q) (ValueIdx.ix1 p) (fun a => ?_)).symm
  match a with
  | ⟨0, _⟩ =>
    show p.val = if n = 1 then 0 else p.val
    split
    · omega
    · rfl

/-- A vector of length n reshaped to a [1, n] row is the vector broadcast along a new leading unit axis: both read,
    at (0, q), the vector at q. -/
private theorem shapeCast_row_eq_bcast {α : Type} {n : Nat} (v : (⟨1, ![n]⟩ : Shape).Idx → α)
    (hs : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ v hs = broadcastInDim ⟨2, ![1, n]⟩ ![1] hb v := by
  funext j
  obtain ⟨u, q, rfl⟩ : ∃ (u : Fin 1) (q : Fin n), j = ValueIdx.ix2 u q := ⟨j 0, j 1, ValueIdx.eq_ix2 j⟩
  have hq := q.isLt
  rw [ValueIdx.shapeCast_a_1a_apply v hs u q]
  refine (broadcastInDim_apply ![1] hb v (ValueIdx.ix2 u q) (ValueIdx.ix1 q) (fun a => ?_)).symm
  match a with
  | ⟨0, _⟩ =>
    show q.val = if n = 1 then 0 else q.val
    split
    · omega
    · rfl

/-! ## The wrap, the range test and the filling gather on indices in range -/

/-- A word below 100000 is not negative as a signed word. -/
private theorem slt_zero_of_lt (w : BitVec 32) (hw : w.toNat < 100000) : IntOp.cmpi .slt w 0#32 = 0#1 := by
  apply ValueIdx.eq_zero_of_ne_one
  intro e
  have h0 : (0#32 : BitVec 32).toNat < 2 ^ 31 := by decide
  have hlt := (StableHlo.Predicate.slt_iff_toNat (a := w) (b := 0#32) (by omega) h0).mp e
  exact Nat.not_lt_zero _ hlt

/-- A word below 100000 is at least 0 and at most 99999 as a signed word. -/
private theorem range_bits_of_lt (w : BitVec 32) (hw : w.toNat < 100000) :
    IntOp.andi (IntOp.cmpi .sge w 0#32) (IntOp.cmpi .sle w 99999#32) = 1#1 := by
  have h0 : (0#32 : BitVec 32).toNat < 2 ^ 31 := by decide
  have h9 : (99999#32 : BitVec 32).toNat < 2 ^ 31 := by decide
  have e9 : (99999#32 : BitVec 32).toNat = 99999 := by decide
  rw [(StableHlo.Predicate.sge_iff_toNat (a := w) (b := 0#32) (by omega) h0).mpr (Nat.zero_le _),
    (StableHlo.Predicate.sle_iff_toNat (a := w) (b := 99999#32) (by omega) h9).mpr (by omega)]
  decide

/-- An index already in range is not moved by the wrap. -/
theorem wrap_eq (idx : IVec S1700000 32) (h : ∀ p : S1700000.Idx, (idx p).toNat < 100000) : KS.wrap idx = idx := by
  funext p
  show Scalar.select (IntOp.cmpi .slt (idx p) 0#32) _ (idx p) = idx p
  rw [slt_zero_of_lt (idx p) (h p), ValueIdx.select_zero]

/-- Every position passes the range test. -/
theorem inRange_eq_one (idx : IVec S1700000 32) (h : ∀ p : S1700000.Idx, (idx p).toNat < 100000) (p : S1700000.Idx) :
    KS.inRange idx p = 1#1 := by
  unfold KS.inRange
  rw [wrap_eq idx h]
  refine reduce_andi_all_one _ (fun i => ?_) _ _ p
  -- the column at i is the index vector at some position; the two bounds are constants
  obtain ⟨q, hq⟩ := bcast_reads ![0] bcast_S1700000_S1700000x1_0 idx i
  show IntOp.andi (IntOp.cmpi .sge (KS.col idx i) 0#32) (IntOp.cmpi .sle (KS.col idx i) 99999#32) = 1#1
  rw [show KS.col idx i = idx q from hq]
  exact range_bits_of_lt (idx q) (h q)

theorem take48_eq_gather (x : FVec F S100000x48 .f32) (idx : IVec S1700000 32) (h : ∀ p : S1700000.Idx, (idx p).toNat < 100000) :
    KS.take48 x idx = Host.gather gather_S100000x48_S1700000x1_S1700000x48_1_0_n_n_0_1_148 x (KS.col (KS.wrap idx)) := by
  funext i
  unfold KS.take48
  rw [ValueIdx.select_apply]
  obtain ⟨q, hq⟩ := bcast_reads ![0] bcast_S1700000_S1700000x48_0 (KS.inRange idx) i
  rw [hq, inRange_eq_one idx h q, ValueIdx.select_one]

theorem take16_eq_gather (x : FVec F S100000x16 .f32) (idx : IVec S1700000 32) (h : ∀ p : S1700000.Idx, (idx p).toNat < 100000) :
    KS.take16 x idx = Host.gather gather_S100000x16_S1700000x1_S1700000x16_1_0_n_n_0_1_116 x (KS.col (KS.wrap idx)) := by
  funext i
  unfold KS.take16
  rw [ValueIdx.select_apply]
  obtain ⟨q, hq⟩ := bcast_reads ![0] bcast_S1700000_S1700000x16_0 (KS.inRange idx) i
  rw [hq, inRange_eq_one idx h q, ValueIdx.select_one]

/-- The edge sources followed by 0 … N − 1 are in range when the edge sources are. -/
theorem srcFull_lt (e : IVec S2x1600000 32)
    (h : ∀ q : S1600000.Idx, ((shapeCast S1600000 (extractStridedSlice S1x1600000 ![0, 0] e slices_S2x1600000_S1x1600000_0_0) shapeCasts_S1x1600000_S1600000) q).toNat < 100000) :
    ∀ p : S1700000.Idx, (KS.srcFull e p).toNat < 100000 := by
  intro p
  obtain ⟨k, rfl⟩ : ∃ k : Fin 1700000, p = ValueIdx.ix1 k := ⟨p 0, ValueIdx.eq_ix1 p⟩
  have hk := k.isLt
  unfold KS.srcFull
  by_cases hlt : k.val < 1600000
  · -- the coordinate falls in the edge sources
    rw [concatenate_pair_apply_left (t := S1700000) (s₁ := S1600000) (s₂ := S100000) (0 : Fin 1) _ _ concatenates_S1600000_S100000_S1700000_d0 (ValueIdx.ix1 k) rfl
      (ValueIdx.ix1 (⟨k.val, hlt⟩ : Fin 1600000)) (fun b => by match b with | ⟨0, _⟩ => rfl)]
    exact h _
  · -- the coordinate falls in the self loops: position k − E of 0 … N − 1
    have hk' : k.val - 1600000 < 100000 := by omega
    rw [concatenate_pair_apply_right (t := S1700000) (s₁ := S1600000) (s₂ := S100000) (0 : Fin 1) _ _ concatenates_S1600000_S100000_S1700000_d0 (ValueIdx.ix1 k) rfl rfl
      (ValueIdx.ix1 (⟨k.val - 1600000, hk'⟩ : Fin 100000))
      (fun b hb => absurd (Fin.ext (by have hb' : b.val < 1 := b.isLt; show b.val = 0; omega)) hb)
      (by show k.val - 1600000 + 1600000 = k.val; omega)]
    show (BitVec.ofNat 32 (k.val - 1600000)).toNat < 100000
    rw [BitVec.toNat_ofNat]
    exact lt_of_le_of_lt (Nat.mod_le _ _) hk'

/-- A vector reshaped to one column is the vector broadcast along a new unit axis. -/
theorem norm2d_eq_bcast (e : IVec S2x1600000 32) :
    KS.norm2d (F := F) e = broadcastInDim S1700000x1 ![0] bcast_S1700000_S1700000x1_0 (KS.norm (F := F) e) :=
  shapeCast_col_eq_bcast (KS.norm (F := F) e) shapeCasts_S1700000_S1700000x1 bcast_S1700000_S1700000x1_0

/-- A vector reshaped to one row is the vector broadcast along a new unit axis. -/
theorem row48_eq_bcast (b : FVec F S48 .f32) (hb : S48.BroadcastsInDim S1x48 (![1] : Fin 1 → Fin S1x48.rank)) :
    KS.row48 b = broadcastInDim S1x48 ![1] hb b :=
  shapeCast_row_eq_bcast b shapeCasts_S48_S1x48 hb

theorem row16_eq_bcast (b : FVec F S16 .f32) (hb : S16.BroadcastsInDim S1x16 (![1] : Fin 1 → Fin S1x16.rank)) :
    KS.row16 b = broadcastInDim S1x16 ![1] hb b :=
  shapeCast_row_eq_bcast b shapeCasts_S16_S1x16 hb

end Cert.KernelIdeal.TakeGather

end
-- ==== Proof.Bridge.lean ====
/-
  The kernel's three layers, as one function of the argument arrays, are the reference's last stage: layer by layer the
  two sides apply the same operations to equal operands once the filling gather is the plain gather (indices in range)
  and the reshapes that add a unit axis are read as the broadcasts the reference writes.
-/
import proofs.«404347_j14139032338889_1_alg».proof.Proof.Gen.KernelIdeal
import proofs.«404347_j14139032338889_1_alg».proof.Proof.Gen.ReferenceIdeal
import proofs.«404347_j14139032338889_1_alg».proof.Proof.KStages
import proofs.«404347_j14139032338889_1_alg».proof.Proof.TakeGather
import proofs.«404347_j14139032338889_1_alg».proof.Proof.RefRead

noncomputable section

namespace Cert.KernelIdeal.Bridge

open Idealize.ShloMosaic

/-- The broadcasts' shape facts, from the reference's own. -/
theorem bc : Cert.KernelIdeal.KS.Bc :=
  ⟨Cert.ReferenceIdeal.Facts₀.bcast_S1700000x1_S1700000x48_0_1,
   Cert.ReferenceIdeal.Facts₀.bcast_S1700000x1_S1700000x16_0_1,
   Cert.ReferenceIdeal.Facts₀.bcast_S1x48_S100000x48_0_1,
   Cert.ReferenceIdeal.Facts₀.bcast_S1x16_S100000x16_0_1,
   Cert.ReferenceIdeal.Facts₀.bcast_S_S100000x48⟩

open Cert.ReferenceIdeal.ReadP

section chains

variable {F : FTy → Type} [FloatOps F]

/-! ## The index lists and their columns -/

/-- The source list with the self loops appended is the reference's. -/
theorem srcFull_eq (e : IVec S2x1600000 32) : KS.srcFull e = val_main_v5 (F := F) e := by
  unfold KS.srcFull val_main_v5 val_main_v1 val_main_v0 val_main_v4
  rfl

/-- The destination list with the self loops appended is the reference's. -/
theorem dstFull_eq (e : IVec S2x1600000 32) : KS.dstFull e = val_main_v6 (F := F) e := by
  unfold KS.dstFull val_main_v6 val_main_v3 val_main_v2 val_main_v4
  rfl

/-- The wrapped source column of the first hidden layer. -/
theorem srcCol_v36 (e : IVec S2x1600000 32) : KS.col (KS.wrap (KS.srcFull e)) = val_main_v36 (F := F) e := by
  rw [srcFull_eq (F := F)]
  unfold KS.col KS.wrap val_main_v36 val_main_v35 val_main_v32 val_main_v34 val_main_v31 val_main_v33 val_main_c_6 val_main_c_7
  rfl

/-- The wrapped source column of the second hidden layer. -/
theorem srcCol_v54 (e : IVec S2x1600000 32) : KS.col (KS.wrap (KS.srcFull e)) = val_main_v54 (F := F) e := by
  rw [srcFull_eq (F := F)]
  unfold KS.col KS.wrap val_main_v54 val_main_v53 val_main_v50 val_main_v52 val_main_v49 val_main_v51 val_main_c_9 val_main_c_10
  rfl

/-- The wrapped source column of the output layer. -/
theorem srcCol_v72 (e : IVec S2x1600000 32) : KS.col (KS.wrap (KS.srcFull e)) = val_main_v72 (F := F) e := by
  rw [srcFull_eq (F := F)]
  unfold KS.col KS.wrap val_main_v72 val_main_v71 val_main_v68 val_main_v70 val_main_v67 val_main_v69 val_main_c_12 val_main_c_13
  rfl

/-- The wrapped source column of the edge weights. -/
theorem srcCol_v20 (e : IVec S2x1600000 32) : KS.col (KS.wrap (KS.srcFull e)) = val_main_v20 (F := F) e := by
  rw [srcFull_eq (F := F)]
  unfold KS.col KS.wrap val_main_v20 val_main_v19 val_main_v16 val_main_v18 val_main_v15 val_main_v17 val_main_c val_main_c_3
  rfl

/-- The wrapped destination column of the edge weights. -/
theorem dstCol_v27 (e : IVec S2x1600000 32) : KS.col (KS.wrap (KS.dstFull e)) = val_main_v27 (F := F) e := by
  rw [dstFull_eq (F := F)]
  unfold KS.col KS.wrap val_main_v27 val_main_v26 val_main_v23 val_main_v25 val_main_v22 val_main_v24 val_main_c_4 val_main_c_5
  rfl

/-- The destination column, as each scatter reads it. -/
theorem dstCol_v9 (e : IVec S2x1600000 32) : KS.col (KS.dstFull e) = val_main_v9 (F := F) e := by
  rw [dstFull_eq (F := F)]
  unfold KS.col val_main_v9
  rfl

theorem dstCol_v42 (e : IVec S2x1600000 32) : KS.col (KS.dstFull e) = val_main_v42 (F := F) e := by
  rw [dstFull_eq (F := F)]
  unfold KS.col val_main_v42
  rfl

theorem dstCol_v60 (e : IVec S2x1600000 32) : KS.col (KS.dstFull e) = val_main_v60 (F := F) e := by
  rw [dstFull_eq (F := F)]
  unfold KS.col val_main_v60
  rfl

theorem dstCol_v78 (e : IVec S2x1600000 32) : KS.col (KS.dstFull e) = val_main_v78 (F := F) e := by
  rw [dstFull_eq (F := F)]
  unfold KS.col val_main_v78
  rfl

/-! ## The edge weights -/

/-- The in-degree. -/
theorem deg_eq (e : IVec S2x1600000 32) : KS.deg (F := F) e = val_main_v10 (F := F) e := by
  unfold KS.deg
  rw [dstCol_v9 (F := F)]
  unfold val_main_v10 val_main_v8 val_main_v7 val_main_cst val_main_cst_0
  rfl

/-- Its inverse square root where positive. -/
theorem dinv_eq (e : IVec S2x1600000 32) : KS.dinv (F := F) e = val_main_v14 (F := F) e := by
  unfold KS.dinv
  rw [deg_eq]
  unfold val_main_v14 val_main_v12 val_main_v13 val_main_call0_v1 val_main_call0_v0 val_main_v11 val_main_cst_1 val_main_cst_2
  rfl

/-- The weight of every edge. -/
theorem norm_eq (e : IVec S2x1600000 32) : KS.norm (F := F) e = val_main_v29 (F := F) e := by
  unfold KS.norm
  rw [dinv_eq, srcCol_v20 (F := F), dstCol_v27 (F := F)]
  unfold val_main_v29 val_main_v21 val_main_v28
  rfl

end chains

/-! ## The matrix products -/

theorem lin1_eq (x : FVec Ideal S100000x32 .f32) (w1 : FVec Ideal S32x48 .f32) :
    Host.dotGeneral (DotDims.plain 100000 32 48) none x w1 = val_main_v30 (F := Ideal) x w1 := by
  unfold val_main_v30
  rfl

theorem lin2_eq (x : FVec Ideal S100000x32 .f32) (e : IVec S2x1600000 32) (w1 : FVec Ideal S32x48 .f32)
    (b1 : FVec Ideal S48 .f32) (w2 : FVec Ideal S48x48 .f32) :
    Host.dotGeneral (φ₁ := .f32) (φ₂ := .f32) (DotDims.plain 100000 48 48) none (val_main_v47 (F := Ideal) x e w1 b1) w2
      = val_main_v48 (F := Ideal) x e w1 b1 w2 := by
  unfold val_main_v48
  rfl

theorem lin3_eq (x : FVec Ideal S100000x32 .f32) (e : IVec S2x1600000 32) (w1 : FVec Ideal S32x48 .f32)
    (b1 : FVec Ideal S48 .f32) (w2 : FVec Ideal S48x48 .f32) (b2 : FVec Ideal S48 .f32) (w3 : FVec Ideal S48x16 .f32) :
    Host.dotGeneral (φ₁ := .f32) (φ₂ := .f32) (DotDims.plain 100000 48 16) none (val_main_v65 (F := Ideal) x e w1 b1 w2 b2) w3
      = val_main_v66 (F := Ideal) x e w1 b1 w2 b2 w3 := by
  unfold val_main_v66
  rfl

/-! ## The layers -/

/-- The first hidden layer after its linear map. -/
theorem layer1_eq (x : FVec Ideal S100000x32 .f32) (e : IVec S2x1600000 32) (w1 : FVec Ideal S32x48 .f32)
    (b1 : FVec Ideal S48 .f32) (hidx : ∀ p : S1700000.Idx, (KS.srcFull e p).toNat < 100000) :
    KS.conv48 bc (val_main_v30 (F := Ideal) x w1) e b1 = val_main_v47 (F := Ideal) x e w1 b1 := by
  unfold KS.conv48 KS.biasRelu48 KS.agg48 KS.scale48
  rw [TakeGather.take48_eq_gather _ _ hidx, TakeGather.norm2d_eq_bcast,
    TakeGather.row48_eq_bcast b1 Cert.ReferenceIdeal.Gen.bcast_S48_S1x48_1,
    srcCol_v36 (F := Ideal), dstCol_v42 (F := Ideal), norm_eq]
  unfold val_main_v47 val_main_v46 val_main_v45 val_main_v44 val_main_v43 val_main_v41 val_main_v40 val_main_v39
    val_main_v38 val_main_v37 val_main_call1_v0 val_main_call1_cst val_main_cst_8
  rfl

/-- The second hidden layer after its linear map. -/
theorem layer2_eq (x : FVec Ideal S100000x32 .f32) (e : IVec S2x1600000 32) (w1 : FVec Ideal S32x48 .f32)
    (b1 : FVec Ideal S48 .f32) (w2 : FVec Ideal S48x48 .f32) (b2 : FVec Ideal S48 .f32)
    (hidx : ∀ p : S1700000.Idx, (KS.srcFull e p).toNat < 100000) :
    KS.conv48 bc (val_main_v48 (F := Ideal) x e w1 b1 w2) e b2 = val_main_v65 (F := Ideal) x e w1 b1 w2 b2 := by
  unfold KS.conv48 KS.biasRelu48 KS.agg48 KS.scale48
  rw [TakeGather.take48_eq_gather _ _ hidx, TakeGather.norm2d_eq_bcast,
    TakeGather.row48_eq_bcast b2 Cert.ReferenceIdeal.Gen.bcast_S48_S1x48_1,
    srcCol_v54 (F := Ideal), dstCol_v60 (F := Ideal), norm_eq]
  unfold val_main_v65 val_main_v64 val_main_v63 val_main_v62 val_main_v61 val_main_v59 val_main_v58 val_main_v57
    val_main_v56 val_main_v55 val_main_call2_v0 val_main_call2_cst val_main_cst_11
  rfl

/-- The output layer after its linear map. -/
theorem layer3_eq (x : FVec Ideal S100000x32 .f32) (e : IVec S2x1600000 32) (w1 : FVec Ideal S32x48 .f32)
    (b1 : FVec Ideal S48 .f32) (w2 : FVec Ideal S48x48 .f32) (b2 : FVec Ideal S48 .f32) (w3 : FVec Ideal S48x16 .f32)
    (b3 : FVec Ideal S16 .f32) (hidx : ∀ p : S1700000.Idx, (KS.srcFull e p).toNat < 100000) :
    KS.conv16 bc (val_main_v66 (F := Ideal) x e w1 b1 w2 b2 w3) e b3
      = val_main_v82 (F := Ideal) x e w1 b1 w2 b2 w3 b3 := by
  unfold KS.conv16 KS.bias16 KS.agg16 KS.scale16
  rw [TakeGather.take16_eq_gather _ _ hidx, TakeGather.norm2d_eq_bcast,
    TakeGather.row16_eq_bcast b3 Cert.ReferenceIdeal.Gen.bcast_S16_S1x16_1,
    srcCol_v72 (F := Ideal), dstCol_v78 (F := Ideal), norm_eq]
  unfold val_main_v82 val_main_v81 val_main_v80 val_main_v79 val_main_v77 val_main_v76 val_main_v75 val_main_v74
    val_main_v73 val_main_cst_14
  rfl

theorem out_eq (x : FVec Ideal Cert.KernelIdeal.S100000x32 .f32) (e : IVec Cert.KernelIdeal.S2x1600000 32)
    (w1 : FVec Ideal Cert.KernelIdeal.S32x48 .f32) (b1 : FVec Ideal Cert.KernelIdeal.S48 .f32)
    (w2 : FVec Ideal Cert.KernelIdeal.S48x48 .f32) (b2 : FVec Ideal Cert.KernelIdeal.S48 .f32)
    (w3 : FVec Ideal Cert.KernelIdeal.S48x16 .f32) (b3 : FVec Ideal Cert.KernelIdeal.S16 .f32)
    (hidx : ∀ p : Cert.KernelIdeal.S1700000.Idx, (Cert.KernelIdeal.KS.srcFull e p).toNat < 100000) :
    Cert.KernelIdeal.KS.out bc x e w1 b1 w2 b2 w3 b3
      = Cert.ReferenceIdeal.ReadP.val_main_v82 (F := Ideal) x e w1 b1 w2 b2 w3 b3 := by
  unfold Cert.KernelIdeal.KS.out
  rw [lin1_eq, layer1_eq x e w1 b1 hidx, lin2_eq, layer2_eq x e w1 b1 w2 b2 hidx, lin3_eq,
    layer3_eq x e w1 b1 w2 b2 w3 b3 hidx]

end Cert.KernelIdeal.Bridge

end
-- ==== Proof.lean ====
/-
  A three-layer graph convolution (symmetric normalisation, self loops added) over 100000 nodes and 1600000 edges:
  per layer a linear map of the node features, a gather of the rows at the edge sources, a product with the edge
  weights dinv[src] * dinv[dst], a sum over the edge destinations, a bias, and in the two hidden layers a cut at 0.
  The kernel does the linear map, the product with the weights and the bias (with the cut) in tiled kernels and the
  gather and the sum on the host; the reference does all of it on the host. Over the extended reals both compute the same
  function of the arguments, operation by operation and in the same order, so no algebraic law is needed beyond the
  matrix product as a sum. The one difference is the gather: the kernel's fills a row whose index is out of range, the
  reference's clamps the index; under the precondition every source index lies in 0 … N − 1, where the two agree.
  Each kernel region's output array is read as one whole-array function of the arrays it finds (RegionMM, RegionScale,
  RegionBias), the host stretches as their operations' terms (HostVals), the boundaries are walked in program order
  (KernelValue), and the result is the reference's last stage (Bridge).
-/
import proofs.«404347_j14139032338889_1_alg».proof.Defs
import proofs.«404347_j14139032338889_1_alg».proof.Proof.Gen.Kernel
import proofs.«404347_j14139032338889_1_alg».proof.Proof.Gen.Kernel.Frame
import proofs.«404347_j14139032338889_1_alg».proof.Proof.Gen.KernelIdeal
import proofs.«404347_j14139032338889_1_alg».proof.Proof.Gen.KernelIdeal.Frame
import proofs.«404347_j14139032338889_1_alg».proof.Proof.Gen.ReferenceIdeal
import proofs.«404347_j14139032338889_1_alg».proof.Proof.Gen.Pre_finite_inputs
import proofs.«404347_j14139032338889_1_alg».proof.Proof.Launch
import proofs.«404347_j14139032338889_1_alg».proof.Proof.KernelValue
import proofs.«404347_j14139032338889_1_alg».proof.Proof.PreDecode
import proofs.«404347_j14139032338889_1_alg».proof.Proof.TakeGather
import proofs.«404347_j14139032338889_1_alg».proof.Proof.Bridge
import proofs.«404347_j14139032338889_1_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the three layers of the argument arrays in their result buffer. -/
theorem algebraic : Cert.algebraic_KernelIdeal_ReferenceIdeal := by
  intro m ρ m' ρ' hpre hagree
  refine ⟨fun c => Cert.KernelIdeal.KS.out Cert.KernelIdeal.Bridge.bc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Named.run_named (F := Ideal) m ρ)
    exact ⟨(h c).1.trans (Cert.KernelIdeal.KernelValue.W18_v54 m ρ Cert.KernelIdeal.Bridge.bc c), (h c).2⟩
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7⟩ := hagree c
    rw [Cert.ReferenceIdeal.ReadP.val_main_v82_eq, e0, e1, e2, e3, e4, e5, e6, e7]
    exact (Cert.KernelIdeal.Bridge.out_eq _ _ _ _ _ _ _ _
      (Cert.KernelIdeal.TakeGather.srcFull_lt _ (Cert.KernelIdeal.PreDecode.src_lt m hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
